-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  let main_cst_2 : FVec F S_ .f32 := constant S_ .f32 0x00000000#32
  let main_v9 : FVec F S16777216x1 .f32 := broadcastInDim S16777216x1 ![] bcast_S_S16777216x1 main_cst_2
  let main_v10 : IVec S16777216x1 1 := cmpf .oeq main_arg1 main_v9
  let main_cst_3 : FVec F S_ .f32 := constant S_ .f32 0x3F800000#32
  let main_v11 : FVec F S16777216x1 .f32 := broadcastInDim S16777216x1 ![] bcast_S_S16777216x1 main_cst_3
  let main_v12 : IVec S16777216x1 1 := cmpf .oeq main_arg1 main_v11
  let main_v13 : IVec S16777216x1 1 := ori main_v10 main_v12
  let main_c_4 : IVec S_ 1 := constantI S_ 1 1#1
  let main_v14 : IVec S_ 1 := (fun x v => Host.reduce IntOp.andi x v reducesTo_S16777216x1_S_d0_1 h_S_) main_v13 main_c_4
  let main_v15 : IVec S_ 1 := andi main_v8 main_v14
  main_v15
-- ==== Kernel.lean ====
abbrev S16777216x1 : Shape := ⟨2, ![16777216, 1]⟩
abbrev S131072x128 : Shape := ⟨2, ![131072, 128]⟩
abbrev S2x32x128 : Shape := ⟨3, ![2, 32, 128]⟩
abbrev S8192x128 : Shape := ⟨2, ![8192, 128]⟩
abbrev S1x32x128 : Shape := ⟨3, ![1, 32, 128]⟩
abbrev S32x128 : Shape := ⟨2, ![32, 128]⟩
abbrev S1x128 : Shape := ⟨2, ![1, 128]⟩
abbrev S256x128 : Shape := ⟨2, ![256, 128]⟩
abbrev S128 : Shape := ⟨1, ![128]⟩
abbrev S3x128 : Shape := ⟨2, ![3, 128]⟩
abbrev S_ : Shape := ⟨0, ![]⟩
abbrev S32 : Shape := ⟨1, ![32]⟩
abbrev S9 : Shape := ⟨1, ![9]⟩
abbrev S1 : Shape := ⟨1, ![1]⟩
abbrev S10 : Shape := ⟨1, ![10]⟩

abbrev nBuf : Space → Nat
  | .hbm => 59
  | .vmem => 7
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S131072x128, .f32⟩
  | .hbm, ⟨3, _⟩ => ⟨S131072x128, .f32⟩
  | .hbm, ⟨4, _⟩ => ⟨S2x32x128, .f32⟩
  | .hbm, ⟨5, _⟩ => ⟨S_, .f32⟩
  | .hbm, ⟨6, _⟩ => ⟨S32x128, .f32⟩
  | .hbm, ⟨7, _⟩ => ⟨S_, .f32⟩
  | .hbm, ⟨8, _⟩ => ⟨S32, .f32⟩
  | .hbm, ⟨9, _⟩ => ⟨S9, .f32⟩
  | .hbm, ⟨10, _⟩ => ⟨S9, .f32⟩
  | .hbm, ⟨11, _⟩ => ⟨S9, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S10, .f32⟩
  | .hbm, ⟨28, _⟩ => ⟨S1, .f32⟩
  | .hbm, ⟨29, _⟩ => ⟨S10, .f32⟩
  | .hbm, ⟨30, _⟩ => ⟨S1, .f32⟩
  | .hbm, ⟨31, _⟩ => ⟨S10, .f32⟩
  | .hbm, ⟨32, _⟩ => ⟨S10, .i32⟩
  | .hbm, ⟨33, _⟩ => ⟨S_, .i32⟩
  | .hbm, ⟨34, _⟩ => ⟨S10, .i32⟩
  | .hbm, ⟨35, _⟩ => ⟨S10, .i1⟩
  | .hbm, ⟨36, _⟩ => ⟨S10, .f32⟩
  | .hbm, ⟨37, _⟩ => ⟨S10, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S10, .f32⟩
  | .hbm, ⟨42, _⟩ => ⟨S10, .f32⟩
  | .hbm, ⟨43, _⟩ => ⟨S_, .f32⟩
  | .hbm, ⟨44, _⟩ => ⟨S10, .f32⟩
  | .hbm, ⟨45, _⟩ => ⟨S10, .i1⟩
  | .hbm, ⟨46, _⟩ => ⟨S_, .f32⟩
  | .hbm, ⟨47, _⟩ => ⟨S10, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S_, .f32⟩
  | .hbm, ⟨57, _⟩ => ⟨S_, .f32⟩
  | .hbm, ⟨58, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x32x128, .f32⟩
  | .local _ .vmem, ⟨5, _⟩ => ⟨S1x32x128, .f32⟩
  | .local _ .vmem, ⟨6, _⟩ => ⟨S32x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c256_i32 : BitVec 32 := 256#32
  let v16 : BitVec 32 := Scalar.muli arg6 c256_i32
  v16
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c256_i32 : BitVec 32 := 256#32
  let v16 : BitVec 32 := Scalar.muli arg6 c256_i32
  let v17 : BitVec 32 := v16
  let v18 : Index := Scalar.indexCast v17
  let c0_8 : Index := 0#32
  ![v18.toNat, 0]
def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216x1_S131072x128 : S16777216x1.ShapeCasts S131072x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  h_S256x128 : 0 < S256x128.numel
  shapeCasts_S256x128_S256x128 : S256x128.ShapeCasts S256x128
  reduces_S256x128_S128 : S256x128.Reduces [0] S128
  shapeCasts_S128_S1x128 : S128.ShapeCasts S1x128
  natLt_1_32 : 1 < 32
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S3x128_S32x128_d0 : Shape.Concatenates [S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S1x128, S3x128] S32x128 0
  shapeCasts_S32x128_S1x32x128 : S32x128.ShapeCasts S1x32x128
  inb_S1x32x128_S1x32x128_0_0_0 : ∀ a, (![0, 0, 0] : Fin 3 → Nat) a + S1x32x128.size a ≤ S1x32x128.size a
  h_S1x32x128 : 0 < S1x32x128.numel
  reducesTo_S2x32x128_S32x128_d0 : S2x32x128.ReducesTo [0] S32x128
  h_S_ : 0 < S_.numel
  reducesTo_S32x128_S32_d1 : S32x128.ReducesTo [1] S32
  slices_S32_S9_0 : S32.Slices ![0] S9
  slices_S32_S9_9 : S32.Slices ![9] S9
  slices_S32_S9_18 : S32.Slices ![18] S9
  slices_S32_S1_27 : S32.Slices ![27] S1
  shapeCasts_S1_S_ : S1.ShapeCasts S_
  slices_S32_S1_28 : S32.Slices ![28] S1
  reducesTo_S9_S_d0 : S9.ReducesTo [0] S_
  shapeCasts_S_S1 : S_.ShapeCasts S1
  concatenates_S9_S1_S10_d0 : Shape.Concatenates [S9, S1] S10 0
  bcast_S_S10 : S_.BroadcastsInDim S10 (![] : Fin 0 → Fin S10.rank)
  reducesTo_S10_S_d0 : S10.ReducesTo [0] S_
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S2x32x128.size a
  hwx0_2 : ∀ i : grid0.Coords, EltTy.bits .f32 = 32 ∨ (Rect.block (s := S2x32x128) S1x32x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x1 : Shape := ⟨2, ![16777216, 1]⟩
abbrev S_ : Shape := ⟨0, ![]⟩
abbrev S16777216 : Shape := ⟨1, ![16777216]⟩
abbrev S10 : Shape := ⟨1, ![10]⟩
abbrev S1 : Shape := ⟨1, ![1]⟩

abbrev nBuf : Space → Nat
  | .hbm => 69
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S16777216x1, .f32⟩
  | .hbm, ⟨3, _⟩ => ⟨S16777216x1, .f32⟩
  | .hbm, ⟨4, _⟩ => ⟨S_, .f32⟩
  | .hbm, ⟨5, _⟩ => ⟨S16777216x1, .f32⟩
  | .hbm, ⟨6, _⟩ => ⟨S16777216x1, .f32⟩
  | .hbm, ⟨7, _⟩ => ⟨S_, .f32⟩
  | .hbm, ⟨8, _⟩ => ⟨S16777216x1, .f32⟩
  | .hbm, ⟨9, _⟩ => ⟨S16777216x1, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .i1⟩
  | .hbm, ⟨15, _⟩ => ⟨S16777216, .f32⟩
  | .hbm, ⟨16, _⟩ => ⟨S16777216, .i1⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S16777216, .i32⟩
  | .hbm, ⟨23, _⟩ => ⟨S_, .i32⟩
  | .hbm, ⟨24, _⟩ => ⟨S16777216, .i32⟩
  | .hbm, ⟨25, _⟩ => ⟨S16777216, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16777216, .i32⟩
  | .hbm, ⟨30, _⟩ => ⟨S16777216, .i32⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S_, .f32⟩
  | .hbm, ⟨35, _⟩ => ⟨S16777216, .f32⟩
  | .hbm, ⟨36, _⟩ => ⟨S_, .f32⟩
  | .hbm, ⟨37, _⟩ => ⟨S10, .f32⟩
  | .hbm, ⟨38, _⟩ => ⟨S16777216x1, .i32⟩
  | .hbm, ⟨39, _⟩ => ⟨S10, .f32⟩
  | .hbm, ⟨40, _⟩ => ⟨S_, .f32⟩
  | .hbm, ⟨41, _⟩ => ⟨S10, .f32⟩
  | .hbm, ⟨42, _⟩ => ⟨S16777216x1, .i32⟩
  | .hbm, ⟨43, _⟩ => ⟨S10, .f32⟩
  | .hbm, ⟨44, _⟩ => ⟨S_, .f32⟩
  | .hbm, ⟨45, _⟩ => ⟨S10, .f32⟩
  | .hbm, ⟨46, _⟩ => ⟨S16777216x1, .i32⟩
  | .hbm, ⟨47, _⟩ => ⟨S10, .f32⟩
  | .hbm, ⟨48, _⟩ => ⟨S_, .f32⟩
  | .hbm, ⟨49, _⟩ => ⟨S10, .f32⟩
  | .hbm, ⟨50, _⟩ => ⟨S10, .i1⟩
  | .hbm, ⟨51, _⟩ => ⟨S_, .f32⟩
  | .hbm, ⟨52, _⟩ => ⟨S10, .f32⟩
  | .hbm, ⟨53, _⟩ => ⟨S10, .f32⟩
  | .hbm, ⟨54, _⟩ => ⟨S10, .f32⟩
  | .hbm, ⟨55, _⟩ => ⟨S10, .f32⟩
  | .hbm, ⟨56, _⟩ => ⟨S_, .f32⟩
  | .hbm, ⟨57, _⟩ => ⟨S10, .f32⟩
  | .hbm, ⟨58, _⟩ => ⟨S10, .f32⟩
  | .hbm, ⟨59, _⟩ => ⟨S10, .f32⟩
  | .hbm, ⟨60, _⟩ => ⟨S10, .f32⟩
  | .hbm, ⟨61, _⟩ => ⟨S10, .f32⟩
  | .hbm, ⟨62, _⟩ => ⟨S_, .f32⟩
  | .hbm, ⟨63, _⟩ => ⟨S_, .f32⟩
  | .hbm, ⟨64, _⟩ => ⟨S10, .f32⟩
  | .hbm, ⟨65, _⟩ => ⟨S10, .f32⟩
  | .hbm, ⟨66, _⟩ => ⟨S_, .f32⟩
  | .hbm, ⟨67, _⟩ => ⟨S_, .f32⟩
  | .hbm, ⟨68, _⟩ => ⟨S1, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_c_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call1_v0 : Ref sig .tc := ⟨.hbm, 63, rfl⟩
abbrev main_call1_v1 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)
  shapeCasts_S16777216x1_S16777216 : S16777216x1.ShapeCasts S16777216
  bcast_S_S16777216 : S_.BroadcastsInDim S16777216 (![] : Fin 0 → Fin S16777216.rank)
  bcast_S_S10 : S_.BroadcastsInDim S10 (![] : Fin 0 → Fin S10.rank)
  bcast_S16777216_S16777216x1_0 : S16777216.BroadcastsInDim S16777216x1 (![0] : Fin 1 → Fin S16777216x1.rank)
  reducesTo_S10_S_d0 : S10.ReducesTo [0] S_
  h_S_ : 0 < S_.numel
  shapeCasts_S_S1 : S_.ShapeCasts S1
  scatter_S10_S16777216x1_S16777216_n_0_0_1_wf : ScatterDims.WF S10 S16777216x1 S16777216 [] [0] [0] 1

variable [Facts₀]

def scatter_S10_S16777216x1_S16777216_n_0_0_1 : ScatterDims S10 S16777216x1 S16777216 where
  updateWindowDims := []
  insertedWindowDims := [0]
  scatterDimsToOperandDims := [0]
  indexVectorDim := 1
  wf := scatter_S10_S16777216x1_S16777216_n_0_0_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Idealize.ShloMosaic.Lib.IdealHost

/-! # The expected calibration error, as one function of the two argument arrays

Both programs compute, over the extended reals, the ten-bin calibration error of `N = 2^24` samples: a sample with
logit `x` has probability `p = 1 / (1 + e^(-x))` and falls in bin `clip (⌈10 p⌉ - 1) 0 9`; per bin one takes the
count, the sum of the probabilities and the sum of an accuracy indicator, and the result is
`∑ b, [count b > 0] · (count b / N) · |conf b / max (count b) 1 - acc b / max (count b) 1|`.

This file states that function (`eceOf` of the three per-bin vectors), the per-sample quantities both programs share,
the reference's per-bin sums over all samples (`cnt`, `conf`, `accR`), and the kernel's route to the same three
vectors: 29 per-lane running sums (`gK`: nine counts, nine label sums, nine probability sums, the total probability
and the total label), bin 9 recovered by subtraction from the totals and the accuracy sum from counts and label sums
(`cntK`, `labK`, `confK`, `accK`). -/

noncomputable section

namespace Cert.Ece

open Idealize.ShloMosaic Idealize.ShloMosaic.ValueIdx

/-- The number of samples. -/
abbrev NN : Nat := 16777216
/-- The shape of each argument array, `[N, 1]`. -/
abbrev SArg : Shape := ⟨2, ![16777216, 1]⟩

/-- Sample `i` of an argument array. -/
def smp (X : SArg.Idx → EReal) (i : Fin NN) : EReal := X (ix2 i (0 : Fin 1))

/-- The literals both programs carry, as the extended reals their words denote: 0, 1, 1/2, 10 and `N = 2^24`. -/
abbrev zeroE : EReal := Ideal.ofBits .f32 0x00000000#32
abbrev oneE : EReal := Ideal.ofBits .f32 0x3F800000#32
abbrev halfE : EReal := Ideal.ofBits .f32 0x3F000000#32
abbrev tenE : EReal := Ideal.ofBits .f32 0x41200000#32
abbrev nE : EReal := Ideal.ofBits .f32 0x4B800000#32

/-- A sample's probability: the logistic function of its logit. -/
def prob (x : EReal) : EReal := Ideal.logistic x

/-- A sample's bin, as the 32-bit word both programs compute: `⌈10 p⌉` converted to an integer, less one, clipped
    to `[0, 9]`. -/
def binw (x : EReal) : BitVec 32 :=
  IntOp.minsi 9#32 (IntOp.maxsi 0#32 (IntOp.subi (Ideal.fptosi 32 (Ideal.liftRound Int.ceil (prob x * tenE))) 1#32))

/-- Whether a sample falls in bin `b`, as 1 or 0. -/
def hit (x : EReal) (b : ℕ) : EReal := if binw x = BitVec.ofNat 32 b then 1 else 0

/-- The same indicator as the kernel forms it: the comparison's bit widened to a word and converted to a float. -/
def hitK (x : EReal) (b : BitVec 32) : EReal :=
  FloatOps.sitofp (F := Ideal) .f32 ((IntOp.cmpi .eq (binw x) b).setWidth 32)

/-- The reference's accuracy indicator of a sample: 1 when the prediction `[p > 1/2]` equals the label, else 0. -/
def accOf (x y : EReal) : EReal :=
  FloatOps.uitofp (F := Ideal) .f32 (FloatOps.cmpf (F := Ideal) (φ := .f32) .oeq
    (FloatOps.uitofp (F := Ideal) .f32 (FloatOps.cmpf (F := Ideal) (φ := .f32) .ogt (prob x) halfE)) y)

/-! ## The reference's per-bin sums over all samples -/

/-- The number of samples in bin `b`. -/
def cnt (X : SArg.Idx → EReal) (b : Fin 10) : EReal := ∑ i : Fin NN, hit (smp X i) b.val
/-- The sum of the probabilities of the samples in bin `b`. -/
def conf (X : SArg.Idx → EReal) (b : Fin 10) : EReal := ∑ i : Fin NN, hit (smp X i) b.val * prob (smp X i)
/-- The sum of the accuracy indicators of the samples in bin `b`. -/
def accR (X Y : SArg.Idx → EReal) (b : Fin 10) : EReal :=
  ∑ i : Fin NN, hit (smp X i) b.val * accOf (smp X i) (smp Y i)

/-! ## The calibration error of three per-bin vectors -/

/-- One bin's term: `(count / N) · |conf / max count 1 - acc / max count 1|` where the count is positive, else 0. -/
def term (c a f : EReal) : EReal :=
  Scalar.select (FloatOps.cmpf (F := Ideal) (φ := .f32) .ogt c zeroE)
    (Ideal.div c nE * FloatOps.hostAbsf (F := Ideal) (φ := .f32) (Ideal.div f (max c oneE) - Ideal.div a (max c oneE)))
    zeroE

/-- The calibration error from the per-bin counts `c`, accuracy sums `a` and probability sums `f`. -/
def eceOf (c a f : Fin 10 → EReal) : EReal := zeroE + ∑ b : Fin 10, term (c b) (a b) (f b)

/-! ## The kernel's route -/

/-- What row `j` of the kernel's 32-row accumulator sums over the samples: rows 0–8 the indicators of bins 0–8,
    rows 9–17 those indicators times the label, rows 18–26 times the probability, row 27 the probability, row 28 the
    label, rows 29–31 zero. -/
def gK (j : ℕ) (x y : EReal) : EReal :=
  if j < 9 then hitK x (BitVec.ofNat 32 j)
  else if j < 18 then hitK x (BitVec.ofNat 32 (j - 9)) * y
  else if j < 27 then hitK x (BitVec.ofNat 32 (j - 18)) * prob x
  else if j = 27 then prob x
  else if j = 28 then y
  else zeroE

/-- The flat sample index of row `R`, lane `l` of block `t` when the `N` samples are laid out as `[131072, 128]` and cut
    into 16 blocks of 8192 rows. -/
def flat (t : Fin 16) (R : Fin 8192) (l : Fin 128) : Fin NN :=
  ⟨(t.val * 8192 + R.val) * 128 + l.val, by have := t.isLt; have := R.isLt; have := l.isLt; show _ < 16777216; omega⟩

/-- Row `j`, lane `l` of what block `t` adds to the accumulator: the sum of `gK j` over the block's 8192 rows. -/
def blockRow (X Y : SArg.Idx → EReal) (t : Fin 16) (j : Fin 32) (l : Fin 128) : EReal :=
  ∑ R : Fin 8192, gK j.val (smp X (flat t R l)) (smp Y (flat t R l))

/-- Entry `(c, j, l)` of the kernel's `[2, 32, 128]` output: core `c` sums its eight blocks `8c … 8c + 7`. -/
def arrK (X Y : SArg.Idx → EReal) (c : Fin 2) (j : Fin 32) (l : Fin 128) : EReal :=
  ∑ s : Fin 8, blockRow X Y ⟨c.val * 8 + s.val, by have := c.isLt; have := s.isLt; omega⟩ j l

/-- The epilogue's row sums of a `[2, 32, 128]` array: first over the two cores, then over the 128 lanes, each from
    an initial zero. -/
def rsOf (A : (⟨3, ![2, 32, 128]⟩ : Shape).Idx → EReal) (j : Fin 32) : EReal :=
  zeroE + ∑ l : Fin 128, (zeroE + ∑ c : Fin 2, A (ix3 c j l))

/-- The counts from the row sums: bins 0–8 are rows 0–8, bin 9 is `N` less their sum. -/
def cntK (rs : Fin 32 → EReal) (b : Fin 10) : EReal :=
  if h : b.val < 9 then rs ⟨b.val, by omega⟩ else nE - (zeroE + ∑ b' : Fin 9, rs ⟨b'.val, by have := b'.isLt; omega⟩)
/-- The label sums: bins 0–8 are rows 9–17, bin 9 is the total (row 28) less their sum. -/
def labK (rs : Fin 32 → EReal) (b : Fin 10) : EReal :=
  if h : b.val < 9 then rs ⟨9 + b.val, by omega⟩
  else rs ⟨28, by omega⟩ - (zeroE + ∑ b' : Fin 9, rs ⟨9 + b'.val, by have := b'.isLt; omega⟩)
/-- The probability sums: bins 0–8 are rows 18–26, bin 9 is the total (row 27) less their sum. -/
def confK (rs : Fin 32 → EReal) (b : Fin 10) : EReal :=
  if h : b.val < 9 then rs ⟨18 + b.val, by omega⟩
  else rs ⟨27, by omega⟩ - (zeroE + ∑ b' : Fin 9, rs ⟨18 + b'.val, by have := b'.isLt; omega⟩)
/-- The accuracy sums: in bins 5–9 the prediction is 1, so the label sum; in bins 0–4 it is 0, so count less label sum. -/
def accK (rs : Fin 32 → EReal) (b : Fin 10) : EReal :=
  if 5 ≤ b.val then labK rs b else cntK rs b - labK rs b

end Cert.Ece

end
-- ==== Proof.KTrip.lean ====
import proofs.«416669_j55327768707242_3_alg».proof.Proof.Gen.KernelIdeal.Frame
import proofs.«416669_j55327768707242_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! # One trip of the kernel's chunk loop, read at the ideal values

A trip loads one 256-row chunk of the logits block and of the labels block and adds, to each of 29 carried
`[1, 128]` rows, the chunk's column sums of one per-sample quantity (`Cert.Ece.gK j`: a bin's indicator, that
indicator times the label or times the probability, the probability, the label). -/

set_option maxRecDepth 16384

noncomputable section

namespace Cert.Ece.K

open Idealize.ShloMosaic Idealize.ShloMosaic.ValueIdx Idealize.SL.Sem
open Cert.KernelIdeal Cert.KernelIdeal.Gen Cert.Ece

/-- The 29 carried rows. -/
abbrev T29 : Type := FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32 × FVec Ideal S1x128 .f32

/-- Carried row `j` (rows past the 28th read the first: never consulted). -/
def comp (a : T29) : ℕ → FVec Ideal S1x128 .f32
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2.1
  | 8 => a.2.2.2.2.2.2.2.2.1
  | 9 => a.2.2.2.2.2.2.2.2.2.1
  | 10 => a.2.2.2.2.2.2.2.2.2.2.1
  | 11 => a.2.2.2.2.2.2.2.2.2.2.2.1
  | 12 => a.2.2.2.2.2.2.2.2.2.2.2.2.1
  | 13 => a.2.2.2.2.2.2.2.2.2.2.2.2.2.1
  | 14 => a.2.2.2.2.2.2.2.2.2.2.2.2.2.2.1
  | 15 => a.2.2.2.2.2.2.2.2.2.2.2.2.2.2.2.1
  | 16 => a.2.2.2.2.2.2.2.2.2.2.2.2.2.2.2.2.1
  | 17 => a.2.2.2.2.2.2.2.2.2.2.2.2.2.2.2.2.2.1
  | 18 => a.2.2.2.2.2.2.2.2.2.2.2.2.2.2.2.2.2.2.1
  | 19 => a.2.2.2.2.2.2.2.2.2.2.2.2.2.2.2.2.2.2.2.1
  | 20 => a.2.2.2.2.2.2.2.2.2.2.2.2.2.2.2.2.2.2.2.2.1
  | 21 => a.2.2.2.2.2.2.2.2.2.2.2.2.2.2.2.2.2.2.2.2.2.1
  | 22 => a.2.2.2.2.2.2.2.2.2.2.2.2.2.2.2.2.2.2.2.2.2.2.1
  | 23 => a.2.2.2.2.2.2.2.2.2.2.2.2.2.2.2.2.2.2.2.2.2.2.2.1
  | 24 => a.2.2.2.2.2.2.2.2.2.2.2.2.2.2.2.2.2.2.2.2.2.2.2.2.1
  | 25 => a.2.2.2.2.2.2.2.2.2.2.2.2.2.2.2.2.2.2.2.2.2.2.2.2.2.1
  | 26 => a.2.2.2.2.2.2.2.2.2.2.2.2.2.2.2.2.2.2.2.2.2.2.2.2.2.2.1
  | 27 => a.2.2.2.2.2.2.2.2.2.2.2.2.2.2.2.2.2.2.2.2.2.2.2.2.2.2.2.1
  | 28 => a.2.2.2.2.2.2.2.2.2.2.2.2.2.2.2.2.2.2.2.2.2.2.2.2.2.2.2.2
  | _ => a.1

/-- A carried row plus the column sums of a chunk: at lane `l`, the row's entry plus the sum over the chunk's 256
    rows of the chunk's entries in that lane. -/
theorem addf_colsum_apply (acc : FVec Ideal S1x128 .f32) (v : FVec Ideal S256x128 .f32) (l : Fin 128) :
    addf acc (shapeCast S1x128 (multiReduction .add [0] S128 v 0x00000000#32 reduces_S256x128_S128 (.inl rfl) rfl)
        shapeCasts_S128_S1x128) (ix2 (0 : Fin 1) l)
      = acc (ix2 (0 : Fin 1) l) + ∑ r : Fin 256, v (ix2 r l) := by
  rw [addf_apply, shapeCast_a_1a_apply]
  refine congrArg (acc (ix2 (0 : Fin 1) l) + ·) ?_
  refine (Ideal.multiReduction_add_single v 0x00000000#32 reduces_S256x128_S128 (.inl rfl) rfl (ix1 l)).trans ?_
  refine Finset.sum_congr rfl fun r _ => ?_
  refine congrArg v (funext fun a => ?_)
  match a with
  | ⟨0, _⟩ => rfl
  | ⟨1, _⟩ => rfl

/-! ## The chunk's pointwise quantities at an entry -/

/-- The labels chunk as the body uses it (an identity cast) is the chunk. -/
theorem labels_apply (cy : FVec Ideal S256x128 .f32) (y : S256x128.Idx) : k0_pay13 (F := Ideal) cy y = cy y :=
  congrFun (shapeCast_self cy _) y

/-- The probabilities of a logits chunk: the logistic function entry by entry. -/
theorem probs_apply (cx : FVec Ideal S256x128 .f32) (y : S256x128.Idx) : k0_pay14 (F := Ideal) cx y = prob (cx y) :=
  congrArg Ideal.logistic (congrFun (shapeCast_self cx _) y)

/-- The bin words of a logits chunk: the bin of each entry. -/
theorem bins_apply (cx : FVec Ideal S256x128 .f32) (y : S256x128.Idx) : k0_pay15 (F := Ideal) cx y = binw (cx y) := by
  show IntOp.minsi 9#32 (IntOp.maxsi 0#32 (IntOp.subi (Ideal.fptosi 32 (Ideal.liftRound Int.ceil
    (k0_pay14 (F := Ideal) cx y * tenE))) 1#32)) = _
  rw [probs_apply]; rfl

/-- The indicator of bin `b` over a vector of bin words, as the body forms it. -/
def maskOf (v : IVec S256x128 32) (b : BitVec 32) : FVec Ideal S256x128 .f32 :=
  sitofp .f32 (extui 32 (cmpi .eq v (broadcast S256x128 b)) natLt_1_32)

theorem maskOf_apply (cx : FVec Ideal S256x128 .f32) (b : BitVec 32) (y : S256x128.Idx) :
    maskOf (k0_pay15 (F := Ideal) cx) b y = hitK (cx y) b := by
  show FloatOps.sitofp (F := Ideal) .f32 ((IntOp.cmpi .eq (k0_pay15 (F := Ideal) cx y) b).setWidth 32) = _
  rw [bins_apply]; rfl

/-! ## The five kinds of carried row after one trip -/

/-- A count row: the carried row plus the chunk's column sums of a bin's indicator. -/
theorem count_row (a : FVec Ideal S1x128 .f32) (cx : FVec Ideal S256x128 .f32) (b : BitVec 32) (l : Fin 128) :
    addf a (shapeCast S1x128 (multiReduction .add [0] S128 (maskOf (k0_pay15 (F := Ideal) cx) b) 0x00000000#32
        reduces_S256x128_S128 (.inl rfl) rfl) shapeCasts_S128_S1x128) (ix2 (0 : Fin 1) l)
      = a (ix2 (0 : Fin 1) l) + ∑ r : Fin 256, hitK (cx (ix2 r l)) b :=
  (addf_colsum_apply a _ l).trans (congrArg (a (ix2 (0 : Fin 1) l) + ·)
    (Finset.sum_congr rfl fun r _ => maskOf_apply cx b (ix2 r l)))

/-- A label-sum row: the carried row plus the column sums of the indicator times the label. -/
theorem lab_row (a : FVec Ideal S1x128 .f32) (cx cy : FVec Ideal S256x128 .f32) (b : BitVec 32) (l : Fin 128) :
    addf a (shapeCast S1x128 (multiReduction .add [0] S128 (mulf (maskOf (k0_pay15 (F := Ideal) cx) b) (k0_pay13 (F := Ideal) cy))
        0x00000000#32 reduces_S256x128_S128 (.inl rfl) rfl) shapeCasts_S128_S1x128) (ix2 (0 : Fin 1) l)
      = a (ix2 (0 : Fin 1) l) + ∑ r : Fin 256, hitK (cx (ix2 r l)) b * cy (ix2 r l) :=
  (addf_colsum_apply a _ l).trans (congrArg (a (ix2 (0 : Fin 1) l) + ·)
    (Finset.sum_congr rfl fun r _ => by
      show maskOf (k0_pay15 (F := Ideal) cx) b (ix2 r l) * k0_pay13 (F := Ideal) cy (ix2 r l) = _
      rw [maskOf_apply, labels_apply]))

/-- A probability-sum row: the carried row plus the column sums of the indicator times the probability. -/
theorem conf_row (a : FVec Ideal S1x128 .f32) (cx : FVec Ideal S256x128 .f32) (b : BitVec 32) (l : Fin 128) :
    addf a (shapeCast S1x128 (multiReduction .add [0] S128 (mulf (maskOf (k0_pay15 (F := Ideal) cx) b) (k0_pay14 (F := Ideal) cx))
        0x00000000#32 reduces_S256x128_S128 (.inl rfl) rfl) shapeCasts_S128_S1x128) (ix2 (0 : Fin 1) l)
      = a (ix2 (0 : Fin 1) l) + ∑ r : Fin 256, hitK (cx (ix2 r l)) b * prob (cx (ix2 r l)) :=
  (addf_colsum_apply a _ l).trans (congrArg (a (ix2 (0 : Fin 1) l) + ·)
    (Finset.sum_congr rfl fun r _ => by
      show maskOf (k0_pay15 (F := Ideal) cx) b (ix2 r l) * k0_pay14 (F := Ideal) cx (ix2 r l) = _
      rw [maskOf_apply, probs_apply]))

/-- The total-probability row. -/
theorem gp_row (a : FVec Ideal S1x128 .f32) (cx : FVec Ideal S256x128 .f32) (l : Fin 128) :
    addf a (shapeCast S1x128 (multiReduction .add [0] S128 (k0_pay14 (F := Ideal) cx)
        0x00000000#32 reduces_S256x128_S128 (.inl rfl) rfl) shapeCasts_S128_S1x128) (ix2 (0 : Fin 1) l)
      = a (ix2 (0 : Fin 1) l) + ∑ r : Fin 256, prob (cx (ix2 r l)) :=
  (addf_colsum_apply a _ l).trans (congrArg (a (ix2 (0 : Fin 1) l) + ·)
    (Finset.sum_congr rfl fun r _ => probs_apply cx (ix2 r l)))

/-- The total-label row. -/
theorem gl_row (a : FVec Ideal S1x128 .f32) (cy : FVec Ideal S256x128 .f32) (l : Fin 128) :
    addf a (shapeCast S1x128 (multiReduction .add [0] S128 (k0_pay13 (F := Ideal) cy)
        0x00000000#32 reduces_S256x128_S128 (.inl rfl) rfl) shapeCasts_S128_S1x128) (ix2 (0 : Fin 1) l)
      = a (ix2 (0 : Fin 1) l) + ∑ r : Fin 256, cy (ix2 r l) :=
  (addf_colsum_apply a _ l).trans (congrArg (a (ix2 (0 : Fin 1) l) + ·)
    (Finset.sum_congr rfl fun r _ => labels_apply cy (ix2 r l)))

/-! ## One trip -/

/-- What one trip yields from the carried rows `a`, as a function of the two loaded chunks: the 29 rows in the
    loop's order (nine counts, nine label sums, nine probability sums, total probability, total label). -/
def tripSpec (cx cy : FVec Ideal S256x128 .f32) (a : T29) : T29 :=
  (k0_pay19 (F := Ideal) a.1 cx,
   k0_pay23 (F := Ideal) a.2.1 (k0_pay22 (F := Ideal) cx),
   k0_pay27 (F := Ideal) a.2.2.1 (k0_pay15 (F := Ideal) cx),
   k0_pay31 (F := Ideal) a.2.2.2.1 (k0_pay15 (F := Ideal) cx),
   k0_pay37 (F := Ideal) a.2.2.2.2.1 (k0_pay35 (F := Ideal) (k0_pay15 (F := Ideal) cx)),
   k0_pay41 (F := Ideal) a.2.2.2.2.2.1 (k0_pay15 (F := Ideal) cx),
   k0_pay45 (F := Ideal) a.2.2.2.2.2.2.1 (k0_pay15 (F := Ideal) cx),
   k0_pay3 (F := Ideal) a.2.2.2.2.2.2.2.1 (k0_pay49 (F := Ideal) (k0_pay15 (F := Ideal) cx)),
   k0_pay7 (F := Ideal) a.2.2.2.2.2.2.2.2.1 (k0_pay15 (F := Ideal) cx),
   k0_pay20 (F := Ideal) a.2.2.2.2.2.2.2.2.2.1 cx cy,
   k0_pay24 (F := Ideal) a.2.2.2.2.2.2.2.2.2.2.1 (k0_pay13 (F := Ideal) cy) (k0_pay22 (F := Ideal) cx),
   k0_pay28 (F := Ideal) a.2.2.2.2.2.2.2.2.2.2.2.1 (k0_pay13 (F := Ideal) cy) (k0_pay15 (F := Ideal) cx),
   k0_pay32 (F := Ideal) a.2.2.2.2.2.2.2.2.2.2.2.2.1 (k0_pay13 (F := Ideal) cy) (k0_pay15 (F := Ideal) cx),
   k0_pay38 (F := Ideal) a.2.2.2.2.2.2.2.2.2.2.2.2.2.1 (k0_pay36 (F := Ideal) (k0_pay13 (F := Ideal) cy) (k0_pay15 (F := Ideal) cx)),
   k0_pay42 (F := Ideal) a.2.2.2.2.2.2.2.2.2.2.2.2.2.2.1 (k0_pay13 (F := Ideal) cy) (k0_pay15 (F := Ideal) cx),
   k0_pay46 (F := Ideal) a.2.2.2.2.2.2.2.2.2.2.2.2.2.2.2.1 (k0_pay13 (F := Ideal) cy) (k0_pay15 (F := Ideal) cx),
   k0_pay4 (F := Ideal) a.2.2.2.2.2.2.2.2.2.2.2.2.2.2.2.2.1 (k0_pay50 (F := Ideal) (k0_pay13 (F := Ideal) cy) (k0_pay15 (F := Ideal) cx)),
   k0_pay8 (F := Ideal) a.2.2.2.2.2.2.2.2.2.2.2.2.2.2.2.2.2.1 (k0_pay13 (F := Ideal) cy) (k0_pay15 (F := Ideal) cx),
   k0_pay21 (F := Ideal) a.2.2.2.2.2.2.2.2.2.2.2.2.2.2.2.2.2.2.1 cx,
   k0_pay25 (F := Ideal) a.2.2.2.2.2.2.2.2.2.2.2.2.2.2.2.2.2.2.2.1 (k0_pay14 (F := Ideal) cx) (k0_pay22 (F := Ideal) cx),
   k0_pay29 (F := Ideal) a.2.2.2.2.2.2.2.2.2.2.2.2.2.2.2.2.2.2.2.2.1 (k0_pay14 (F := Ideal) cx) (k0_pay15 (F := Ideal) cx),
   k0_pay33 (F := Ideal) a.2.2.2.2.2.2.2.2.2.2.2.2.2.2.2.2.2.2.2.2.2.1 (k0_pay14 (F := Ideal) cx) (k0_pay15 (F := Ideal) cx),
   k0_pay39 (F := Ideal) a.2.2.2.2.2.2.2.2.2.2.2.2.2.2.2.2.2.2.2.2.2.2.1 (k0_pay14 (F := Ideal) cx) (k0_pay34 (F := Ideal) (k0_pay15 (F := Ideal) cx)),
   k0_pay43 (F := Ideal) a.2.2.2.2.2.2.2.2.2.2.2.2.2.2.2.2.2.2.2.2.2.2.2.1 (k0_pay14 (F := Ideal) cx) (k0_pay15 (F := Ideal) cx),
   k0_pay47 (F := Ideal) a.2.2.2.2.2.2.2.2.2.2.2.2.2.2.2.2.2.2.2.2.2.2.2.2.1 (k0_pay14 (F := Ideal) cx) (k0_pay15 (F := Ideal) cx),
   k0_pay5 (F := Ideal) a.2.2.2.2.2.2.2.2.2.2.2.2.2.2.2.2.2.2.2.2.2.2.2.2.2.1 (k0_pay14 (F := Ideal) cx) (k0_pay48 (F := Ideal) (k0_pay15 (F := Ideal) cx)),
   k0_pay9 (F := Ideal) a.2.2.2.2.2.2.2.2.2.2.2.2.2.2.2.2.2.2.2.2.2.2.2.2.2.2.1 (k0_pay14 (F := Ideal) cx) (k0_pay15 (F := Ideal) cx),
   k0_pay16 (F := Ideal) a.2.2.2.2.2.2.2.2.2.2.2.2.2.2.2.2.2.2.2.2.2.2.2.2.2.2.2.1 cx,
   k0_pay17 (F := Ideal) a.2.2.2.2.2.2.2.2.2.2.2.2.2.2.2.2.2.2.2.2.2.2.2.2.2.2.2.2 cy)

/-- Row `j` after a trip, at lane `l`: the row before plus the chunk's column sum of `gK j`. -/
theorem tripSpec_comp (cx cy : FVec Ideal S256x128 .f32) (a : T29) (j : ℕ) (hj : j < 29) (l : Fin 128) :
    comp (tripSpec cx cy a) j (ix2 (0 : Fin 1) l)
      = comp a j (ix2 (0 : Fin 1) l) + ∑ r : Fin 256, gK j (cx (ix2 r l)) (cy (ix2 r l)) := by
  interval_cases j
  · exact count_row a.1 cx 0#32 l
  · exact count_row a.2.1 cx 1#32 l
  · exact count_row a.2.2.1 cx 2#32 l
  · exact count_row a.2.2.2.1 cx 3#32 l
  · exact count_row a.2.2.2.2.1 cx 4#32 l
  · exact count_row a.2.2.2.2.2.1 cx 5#32 l
  · exact count_row a.2.2.2.2.2.2.1 cx 6#32 l
  · exact count_row a.2.2.2.2.2.2.2.1 cx 7#32 l
  · exact count_row a.2.2.2.2.2.2.2.2.1 cx 8#32 l
  · exact lab_row a.2.2.2.2.2.2.2.2.2.1 cx cy 0#32 l
  · exact lab_row a.2.2.2.2.2.2.2.2.2.2.1 cx cy 1#32 l
  · exact lab_row a.2.2.2.2.2.2.2.2.2.2.2.1 cx cy 2#32 l
  · exact lab_row a.2.2.2.2.2.2.2.2.2.2.2.2.1 cx cy 3#32 l
  · exact lab_row a.2.2.2.2.2.2.2.2.2.2.2.2.2.1 cx cy 4#32 l
  · exact lab_row a.2.2.2.2.2.2.2.2.2.2.2.2.2.2.1 cx cy 5#32 l
  · exact lab_row a.2.2.2.2.2.2.2.2.2.2.2.2.2.2.2.1 cx cy 6#32 l
  · exact lab_row a.2.2.2.2.2.2.2.2.2.2.2.2.2.2.2.2.1 cx cy 7#32 l
  · exact lab_row a.2.2.2.2.2.2.2.2.2.2.2.2.2.2.2.2.2.1 cx cy 8#32 l
  · exact conf_row a.2.2.2.2.2.2.2.2.2.2.2.2.2.2.2.2.2.2.1 cx 0#32 l
  · exact conf_row a.2.2.2.2.2.2.2.2.2.2.2.2.2.2.2.2.2.2.2.1 cx 1#32 l
  · exact conf_row a.2.2.2.2.2.2.2.2.2.2.2.2.2.2.2.2.2.2.2.2.1 cx 2#32 l
  · exact conf_row a.2.2.2.2.2.2.2.2.2.2.2.2.2.2.2.2.2.2.2.2.2.1 cx 3#32 l
  · exact conf_row a.2.2.2.2.2.2.2.2.2.2.2.2.2.2.2.2.2.2.2.2.2.2.1 cx 4#32 l
  · exact conf_row a.2.2.2.2.2.2.2.2.2.2.2.2.2.2.2.2.2.2.2.2.2.2.2.1 cx 5#32 l
  · exact conf_row a.2.2.2.2.2.2.2.2.2.2.2.2.2.2.2.2.2.2.2.2.2.2.2.2.1 cx 6#32 l
  · exact conf_row a.2.2.2.2.2.2.2.2.2.2.2.2.2.2.2.2.2.2.2.2.2.2.2.2.2.1 cx 7#32 l
  · exact conf_row a.2.2.2.2.2.2.2.2.2.2.2.2.2.2.2.2.2.2.2.2.2.2.2.2.2.2.1 cx 8#32 l
  · exact gp_row a.2.2.2.2.2.2.2.2.2.2.2.2.2.2.2.2.2.2.2.2.2.2.2.2.2.2.2.1 cx l
  · exact gl_row a.2.2.2.2.2.2.2.2.2.2.2.2.2.2.2.2.2.2.2.2.2.2.2.2.2.2.2.2 cy l

end Cert.Ece.K

end
-- ==== Proof.KLoop.lean ====
import proofs.«416669_j55327768707242_3_alg».proof.Proof.KTrip

/-! # The kernel's chunk loop, read at the ideal values

The loop runs 32 trips over a block of 8192 rows, trip `k` loading rows `256 k … 256 k + 255` of the logits block and
of the labels block. After `n` trips carried row `j` holds, at lane `l`, its initial entry plus the sum over the rows
`R < 256 n` of `gK j` of the two blocks' entries at `(R, l)`. -/

set_option maxRecDepth 16384

noncomputable section

namespace Cert.Ece.K

open Idealize.ShloMosaic Idealize.ShloMosaic.ValueIdx Idealize.SL.Sem
open Cert.KernelIdeal Cert.KernelIdeal.Gen Cert.Ece

/-- Entry `(R, l)` of a block, zero past its 8192 rows. -/
def rowAt (x : Vec Ideal S8192x128 .f32) (R : ℕ) (l : Fin 128) : EReal :=
  if h : R < 8192 then x (ix2 (⟨R, h⟩ : Fin 8192) l) else 0

/-- The chunk trip `k` loads from a block. -/
def ldChunk (x : Vec Ideal S8192x128 .f32) (k : Fin k0_t1_loop.trips) : FVec Ideal S256x128 .f32 :=
  View.ld x (Rect.unit (s := S8192x128) (k0_off1 k) S256x128.size (k0_off1_inb k))

theorem trips_eq : k0_t1_loop.trips = 32 := by decide

/-- Row `r`, lane `l` of trip `k`'s chunk is row `256 k + r` of the block. -/
theorem ldChunk_apply (x : Vec Ideal S8192x128 .f32) (k : Fin k0_t1_loop.trips) (r : Fin 256) (l : Fin 128) :
    ldChunk x k (ix2 r l) = rowAt x (256 * k.val + r.val) l := by
  have hk : k.val < 32 := lt_of_lt_of_eq k.isLt trips_eq
  have hR : 256 * k.val + r.val < 8192 := by have := r.isLt; omega
  unfold rowAt; rw [dif_pos hR]
  show x ((Rect.unit (s := S8192x128) (k0_off1 k) S256x128.size (k0_off1_inb k)).idx (ix2 r l)) = _
  refine congrArg x (funext fun a => Fin.ext ?_)
  rw [LoadRect.idx_apply]
  match a with
  | ⟨0, _⟩ =>
    show k0_off1 k 0 + 1 * r.val = 256 * k.val + r.val
    rw [k0_off1_eq]; simp
  | ⟨1, _⟩ =>
    show k0_off1 k 1 + 1 * l.val = l.val
    rw [k0_off1_eq]; simp

/-- One trip of the generated loop, on whole staging memrefs holding the blocks `x0`, `x1`: `tripSpec` of the two
    chunks it loads. -/
theorem tripR_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole)
    (x0 x1 : Vec Ideal S8192x128 .f32) (k : Fin k0_t1_loop.trips) (acc : T29) :
    tripR_k0_t1 (F := Ideal) Variants.none c none i arg2 harg2 arg3 harg3 arg4 harg4 arg5 harg5 (harg2.unread x0) (harg3.unread x1) k acc
      = tripSpec (ldChunk x0 k) (ldChunk x1 k) acc := by
  have e2 : ∀ r : Rect S8192x128, View.readAt (Elt Ideal) arg2.view r.toLoadRect (harg2.unread x0) = View.ld x0 r := fun r => by
    rw [View.readAt_eq_ld, harg2.read_unread]
  have e3 : ∀ r : Rect S8192x128, View.readAt (Elt Ideal) arg3.view r.toLoadRect (harg3.unread x1) = View.ld x1 r := fun r => by
    rw [View.readAt_eq_ld, harg3.read_unread]
  unfold tripR_k0_t1 trip_k0_t1
  dsimp only
  sl_unfold_words
  simp only [e2, e3]
  rfl

/-- The carried rows before trip `n`, from the initial rows `init`. -/
abbrev stAt (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole)
    (x0 x1 : Vec Ideal S8192x128 .f32) (init : T29) (n : ℕ) : T29 :=
  st_k0_t1 (F := Ideal) Variants.none c none i arg2 harg2 arg3 harg3 arg4 harg4 arg5 harg5 (harg2.unread x0) (harg3.unread x1) init n

/-- THE LOOP'S INVARIANT, as a value: before trip `n` carried row `j` is its initial value plus the sums over the
    chunks already read. -/
theorem stAt_comp (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole)
    (x0 x1 : Vec Ideal S8192x128 .f32) (init : T29) (j : ℕ) (hj : j < 29) (l : Fin 128) :
    ∀ n : ℕ, n ≤ 32 → comp (stAt c i arg2 harg2 arg3 harg3 arg4 harg4 arg5 harg5 x0 x1 init n) j (ix2 (0 : Fin 1) l)
      = comp init j (ix2 (0 : Fin 1) l)
        + ∑ k ∈ Finset.range n, ∑ r : Fin 256, gK j (rowAt x0 (256 * k + r.val) l) (rowAt x1 (256 * k + r.val) l)
  | 0, _ => by
    rw [Finset.sum_range_zero, add_zero]; rfl
  | n + 1, hn => by
    have hn' : n < k0_t1_loop.trips := by rw [trips_eq]; omega
    have hs := st_k0_t1_succ (F := Ideal) Variants.none c none i arg2 harg2 arg3 harg3 arg4 harg4 arg5 harg5 (harg2.unread x0) (harg3.unread x1) init ⟨n, hn'⟩
    have ih := stAt_comp c i arg2 harg2 arg3 harg3 arg4 harg4 arg5 harg5 x0 x1 init j hj l n (by omega)
    show comp (st_k0_t1 (F := Ideal) Variants.none c none i arg2 harg2 arg3 harg3 arg4 harg4 arg5 harg5 (harg2.unread x0) (harg3.unread x1) init (n + 1)) j (ix2 (0 : Fin 1) l) = _
    rw [hs, tripR_eq, tripSpec_comp _ _ _ j hj l, Finset.sum_range_succ, ← add_assoc]
    refine congrArg₂ (· + ·) ih ?_
    refine Finset.sum_congr rfl fun r _ => ?_
    rw [ldChunk_apply, ldChunk_apply]

end Cert.Ece.K

end
-- ==== Proof.KBody.lean ====
import proofs.«416669_j55327768707242_3_alg».proof.Proof.KLoop

/-! # The kernel body's stores, read at the ideal values

After the chunk loop the body concatenates the 29 carried rows and three zero rows into a `[32, 128]` tile, adds it
to the scratch accumulator (zeroed first at a core's first step) and, at a core's last step, copies the accumulator to
the output block. So each grid point adds to the accumulator, at `(j, l)`, the sum over the block's 8192 rows of
`gK j` of the logits and labels blocks' entries in lane `l`. -/

set_option maxRecDepth 16384

noncomputable section

namespace Cert.Ece.K

open Idealize.ShloMosaic Idealize.ShloMosaic.ValueIdx Idealize.SL.Sem
open Cert.KernelIdeal Cert.KernelIdeal.Gen Cert.Ece

/-! ## The concatenated tile -/

/-- The pieces of the tile: the 29 carried rows, then a `[3, 128]` block of zeros. -/
def catList (a : T29) : List ((s : Shape) × (s.Idx → EReal)) :=
  [⟨S1x128, a.1⟩, ⟨S1x128, a.2.1⟩, ⟨S1x128, a.2.2.1⟩, ⟨S1x128, a.2.2.2.1⟩, ⟨S1x128, a.2.2.2.2.1⟩, ⟨S1x128, a.2.2.2.2.2.1⟩, ⟨S1x128, a.2.2.2.2.2.2.1⟩, ⟨S1x128, a.2.2.2.2.2.2.2.1⟩, ⟨S1x128, a.2.2.2.2.2.2.2.2.1⟩, ⟨S1x128, a.2.2.2.2.2.2.2.2.2.1⟩, ⟨S1x128, a.2.2.2.2.2.2.2.2.2.2.1⟩, ⟨S1x128, a.2.2.2.2.2.2.2.2.2.2.2.1⟩, ⟨S1x128, a.2.2.2.2.2.2.2.2.2.2.2.2.1⟩, ⟨S1x128, a.2.2.2.2.2.2.2.2.2.2.2.2.2.1⟩, ⟨S1x128, a.2.2.2.2.2.2.2.2.2.2.2.2.2.2.1⟩, ⟨S1x128, a.2.2.2.2.2.2.2.2.2.2.2.2.2.2.2.1⟩, ⟨S1x128, a.2.2.2.2.2.2.2.2.2.2.2.2.2.2.2.2.1⟩, ⟨S1x128, a.2.2.2.2.2.2.2.2.2.2.2.2.2.2.2.2.2.1⟩, ⟨S1x128, a.2.2.2.2.2.2.2.2.2.2.2.2.2.2.2.2.2.2.1⟩, ⟨S1x128, a.2.2.2.2.2.2.2.2.2.2.2.2.2.2.2.2.2.2.2.1⟩, ⟨S1x128, a.2.2.2.2.2.2.2.2.2.2.2.2.2.2.2.2.2.2.2.2.1⟩, ⟨S1x128, a.2.2.2.2.2.2.2.2.2.2.2.2.2.2.2.2.2.2.2.2.2.1⟩, ⟨S1x128, a.2.2.2.2.2.2.2.2.2.2.2.2.2.2.2.2.2.2.2.2.2.2.1⟩, ⟨S1x128, a.2.2.2.2.2.2.2.2.2.2.2.2.2.2.2.2.2.2.2.2.2.2.2.1⟩, ⟨S1x128, a.2.2.2.2.2.2.2.2.2.2.2.2.2.2.2.2.2.2.2.2.2.2.2.2.1⟩, ⟨S1x128, a.2.2.2.2.2.2.2.2.2.2.2.2.2.2.2.2.2.2.2.2.2.2.2.2.2.1⟩, ⟨S1x128, a.2.2.2.2.2.2.2.2.2.2.2.2.2.2.2.2.2.2.2.2.2.2.2.2.2.2.1⟩, ⟨S1x128, a.2.2.2.2.2.2.2.2.2.2.2.2.2.2.2.2.2.2.2.2.2.2.2.2.2.2.2.1⟩, ⟨S1x128, a.2.2.2.2.2.2.2.2.2.2.2.2.2.2.2.2.2.2.2.2.2.2.2.2.2.2.2.2⟩, ⟨S3x128, broadcast S3x128 (Scalar.ofBits (F := Ideal) .f32 0x00000000#32)⟩]

/-- The `[32, 128]` tile the body builds from the carried rows. -/
def cat (a : T29) : FVec Ideal S32x128 .f32 := k0_pay10 (F := Ideal) a.1 a.2.1 a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2.1 a.2.2.2.2.2.2.2.2.2.2.2.2.2.2.1 a.2.2.2.2.2.2.2.2.2.2.2.2.2.2.2.1 a.2.2.2.2.2.2.2.2.2.2.2.2.2.2.2.2.1 a.2.2.2.2.2.2.2.2.2.2.2.2.2.2.2.2.2.1 a.2.2.2.2.2.2.2.2.2.2.2.2.2.2.2.2.2.2.1 a.2.2.2.2.2.2.2.2.2.2.2.2.2.2.2.2.2.2.2.1 a.2.2.2.2.2.2.2.2.2.2.2.2.2.2.2.2.2.2.2.2.1 a.2.2.2.2.2.2.2.2.2.2.2.2.2.2.2.2.2.2.2.2.2.1 a.2.2.2.2.2.2.2.2.2.2.2.2.2.2.2.2.2.2.2.2.2.2.1 a.2.2.2.2.2.2.2.2.2.2.2.2.2.2.2.2.2.2.2.2.2.2.2.1 a.2.2.2.2.2.2.2.2.2.2.2.2.2.2.2.2.2.2.2.2.2.2.2.2.1 a.2.2.2.2.2.2.2.2.2.2.2.2.2.2.2.2.2.2.2.2.2.2.2.2.2.1 a.2.2.2.2.2.2.2.2.2.2.2.2.2.2.2.2.2.2.2.2.2.2.2.2.2.2.1 a.2.2.2.2.2.2.2.2.2.2.2.2.2.2.2.2.2.2.2.2.2.2.2.2.2.2.2.1 a.2.2.2.2.2.2.2.2.2.2.2.2.2.2.2.2.2.2.2.2.2.2.2.2.2.2.2.2

/-- Row `k < 29` of the tile is carried row `k`. -/
theorem cat_unit_row (a : T29) (k : ℕ) (hk : k < 30) (x₁ : S1x128.Idx → EReal)
    (hxk : (catList a)[k]'hk = ⟨S1x128, x₁⟩)
    (hpre : ((((catList a).take k).map (·.1)).map fun s => if h : s.rank = S32x128.rank then s.size ((0 : Fin S32x128.rank).cast h.symm) else 0).sum = k)
    (hk' : k < 32) (l : Fin 128) :
    cat a (ix2 (⟨k, hk'⟩ : Fin 32) l) = x₁ (ix2 (0 : Fin 1) l) := by
  unfold cat k0_pay10
  refine concatenate_apply_piece (0 : Fin S32x128.rank) (catList a) _ (ix2 (⟨k, hk'⟩ : Fin 32) l) k hk S1x128 x₁ hxk rfl k hpre (ix2 (0 : Fin 1) l) ?_ rfl
  intro b hb
  match b with
  | ⟨0, _⟩ => exact absurd rfl hb
  | ⟨1, _⟩ => rfl

theorem cat_apply_lt (a : T29) (j : ℕ) (hj : j < 29) (l : Fin 128) :
    cat a (ix2 (⟨j, by omega⟩ : Fin 32) l) = comp a j (ix2 (0 : Fin 1) l) := by
  interval_cases j <;> exact cat_unit_row a _ (by decide) (comp a _) rfl (by simp [catList]) _ l

/-- Rows 29, 30, 31 of the tile are zero. -/
theorem cat_apply_pad (a : T29) (u : Fin 3) (l : Fin 128) :
    cat a (ix2 (⟨29 + u.val, by omega⟩ : Fin 32) l) = zeroE := by
  unfold cat k0_pay10
  refine concatenate_apply_piece (0 : Fin S32x128.rank) (catList a) _ (ix2 (⟨29 + u.val, by omega⟩ : Fin 32) l) 29 (by show (29 : ℕ) < 30; decide) S3x128 (fun _ => zeroE) rfl rfl 29 (by simp [catList]) (ix2 u l) ?_ rfl
  intro b hb
  match b with
  | ⟨0, _⟩ => exact absurd rfl hb
  | ⟨1, _⟩ => rfl

/-! ## The loop's result -/

/-- The loop's initial rows: 29 rows of zeros. -/
def init0 : T29 := (k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal), k0_pay2 (F := Ideal))

theorem comp_init0 (j : ℕ) (hj : j < 29) (y : S1x128.Idx) : comp init0 j y = zeroE := by
  interval_cases j <;> rfl

/-- The sum over 32 chunks of 256 rows is the sum over the 8192 rows. -/
theorem sum_chunks (F : ℕ → EReal) :
    ∀ n : ℕ, ∑ k ∈ Finset.range n, ∑ r : Fin 256, F (256 * k + r.val) = ∑ R ∈ Finset.range (256 * n), F R
  | 0 => by simp
  | n + 1 => by
    rw [Finset.sum_range_succ, sum_chunks F n, Nat.mul_succ, Finset.sum_range_add,
      Fin.sum_univ_eq_sum_range (fun r => F (256 * n + r)) 256]

/-- Row `j`, lane `l` of what a block pair adds to the accumulator: the sum of `gK j` down the 8192 rows. -/
def blkRows (x0 x1 : Vec Ideal S8192x128 .f32) (j : Fin 32) (l : Fin 128) : EReal :=
  ∑ R : Fin 8192, gK j.val (x0 (ix2 R l)) (x1 (ix2 R l))

theorem zeroE_eq : zeroE = 0 := Ideal.ofBits_zero_f32

/-- The tile built from the loop's result is the block pair's column sums. -/
theorem cat_final (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole)
    (x0 x1 : Vec Ideal S8192x128 .f32) (j : Fin 32) (l : Fin 128) :
    cat (stAt c i arg2 harg2 arg3 harg3 arg4 harg4 arg5 harg5 x0 x1 init0 32) (ix2 j l) = blkRows x0 x1 j l := by
  unfold blkRows
  by_cases hj : j.val < 29
  · have e := cat_apply_lt (stAt c i arg2 harg2 arg3 harg3 arg4 harg4 arg5 harg5 x0 x1 init0 32) j.val hj l
    rw [show (⟨j.val, by omega⟩ : Fin 32) = j from Fin.ext rfl] at e
    rw [e, stAt_comp c i arg2 harg2 arg3 harg3 arg4 harg4 arg5 harg5 x0 x1 init0 j.val hj l 32 le_rfl, comp_init0 j.val hj, zeroE_eq, zero_add,
      sum_chunks (fun R => gK j.val (rowAt x0 R l) (rowAt x1 R l)) 32,
      Finset.sum_range (fun R => gK j.val (rowAt x0 R l) (rowAt x1 R l))]
    refine Finset.sum_congr rfl fun R _ => ?_
    unfold rowAt
    rw [dif_pos R.isLt, dif_pos R.isLt]
  · obtain ⟨u, hu⟩ : ∃ u : Fin 3, 29 + u.val = j.val := ⟨⟨j.val - 29, by omega⟩, by simp; omega⟩
    have e := cat_apply_pad (stAt c i arg2 harg2 arg3 harg3 arg4 harg4 arg5 harg5 x0 x1 init0 32) u l
    rw [show (⟨29 + u.val, by omega⟩ : Fin 32) = j from Fin.ext hu] at e
    rw [e]
    have hg : ∀ x y : EReal, gK j.val x y = 0 := fun x y => by
      unfold gK
      rw [if_neg (by omega), if_neg (by omega), if_neg (by omega), if_neg (by omega), if_neg (by omega), zeroE_eq]
    simp only [hg, Finset.sum_const_zero, zeroE_eq]

/-! ## What each case of the body leaves -/

theorem hz2 : (![0, 0] : Fin 2 → ℕ) = fun _ => 0 := by
  funext a
  match a with
  | ⟨0, _⟩ => rfl
  | ⟨1, _⟩ => rfl

/-- The accumulator's read-add-write: the contents found plus the tile. -/
theorem acc_apply (v7 : FVec Ideal S32x128 .f32) (v8 : Vec Ideal S32x128 .f32) (y : S32x128.Idx) :
    k0_pay11 (F := Ideal) v7 v8 y = v8 y + v7 y := by
  show shapeCast S32x128 (addf (F := Ideal) (φ := .f32) (s := S32x128) v8 v7) shapeCasts_S32x128_S32x128 y = _
  rw [shapeCast_self]; rfl

/-- A middle step (neither a core's first nor its last): the accumulator ends at what it held plus the tile. -/
theorem sout0_B_0_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole) (hc0 : ¬cond0_0 i) (hc1 : ¬cond0_1 i)
    (x0 x1 : Vec Ideal S8192x128 .f32) (xs0 : Vec Ideal S32x128 .f32) :
    sout0_B_0 (F := Ideal) c i arg2 harg2 arg3 harg3 arg4 harg4 arg5 harg5 hc0 hc1 x0 x1 xs0
      = k0_pay11 (F := Ideal) (cat (stAt c i arg2 harg2 arg3 harg3 arg4 harg4 arg5 harg5 x0 x1 init0 32)) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg5.read_unread, View.ld_unit_zero (S := S32x128) hz2]
  rfl

theorem hz3 : (![0, 0, 0] : Fin 3 → ℕ) = fun _ => 0 := by
  funext a
  match a with
  | ⟨0, _⟩ => rfl
  | ⟨1, _⟩ => rfl
  | ⟨2, _⟩ => rfl

/-- A core's last step: the accumulator ends at what it held plus the tile, -/
theorem sout0_C_0_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole) (hc0 : ¬cond0_0 i) (hc1 : cond0_1 i)
    (x0 x1 : Vec Ideal S8192x128 .f32) (xs0 : Vec Ideal S32x128 .f32) :
    sout0_C_0 (F := Ideal) c i arg2 harg2 arg3 harg3 arg4 harg4 arg5 harg5 hc0 hc1 x0 x1 xs0
      = k0_pay11 (F := Ideal) (cat (stAt c i arg2 harg2 arg3 harg3 arg4 harg4 arg5 harg5 x0 x1 init0 32)) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg5.read_unread, View.ld_unit_zero (S := S32x128) hz2]
  rfl

/-- and the output block is that accumulator under a leading unit axis. -/
theorem out0_C_2_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole) (hc0 : ¬cond0_0 i) (hc1 : cond0_1 i)
    (x0 x1 : Vec Ideal S8192x128 .f32) (xs0 : Vec Ideal S32x128 .f32) :
    out0_C_2 (F := Ideal) c i arg2 harg2 arg3 harg3 arg4 harg4 arg5 harg5 hc0 hc1 x0 x1 xs0
      = k0_pay12 (F := Ideal) (k0_pay11 (F := Ideal) (cat (stAt c i arg2 harg2 arg3 harg3 arg4 harg4 arg5 harg5 x0 x1 init0 32)) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg5.read_unread, View.ld_unit_zero (S := S32x128) hz2,
    View.readCov_unit_zero (S := S32x128) _ hz2]
  rfl

/-- A core's first step: the accumulator is zeroed, then the tile is added to the zeros. -/
theorem sout0_A_0_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x32x128 .f32) (harg4 : arg4.IsWhole) (arg5 : Memref sig .tc .vmem S32x128 .f32) (harg5 : arg5.IsWhole) (hc0 : cond0_0 i) (hc1 : ¬cond0_1 i)
    (x0 x1 : Vec Ideal S8192x128 .f32) :
    sout0_A_0 (F := Ideal) c i arg2 harg2 arg3 harg3 arg4 harg4 arg5 harg5 hc0 hc1 x0 x1
      = k0_pay11 (F := Ideal) (cat (stAt c i arg2 harg2 arg3 harg3 arg4 harg4 arg5 harg5 x0 x1 init0 32)) (k0_pay1 (F := Ideal)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x128) hz2]
  simp only [View.readAt_eq_ld, View.ld_unit_zero (S := S32x128) hz2,
    View.readCov_unit_zero (S := S32x128) _ hz2]
  rfl

end Cert.Ece.K

end
-- ==== Proof.KGrid.lean ====
import proofs.«416669_j55327768707242_3_alg».proof.Proof.KBody

/-! # The accumulator point by point, and the output blocks

The grid has 16 points, point `t` being step `t % 8` of core `t / 8`. A core's first step starts the accumulator at
its block's column sums, every later step adds its block's, and the last step (`t % 8 = 7`) stores the accumulator as
the core's output block. -/

set_option maxRecDepth 16384

noncomputable section

namespace Cert.Ece.K

open Idealize.ShloMosaic Idealize.ShloMosaic.ValueIdx Idealize.SL.Sem
open Cert.KernelIdeal Cert.KernelIdeal.Gen Cert.Ece

variable (m : (ℓ : Loc nD τ sig) → Buf (Elt Ideal) ℓ)

/-- The logits block and the labels block of point `t`. -/
abbrev xblk (c : Dev nD) (t : Fin cfg0.N) : Vec Ideal S8192x128 .f32 := iblk m c 0 t
abbrev yblk (c : Dev nD) (t : Fin cfg0.N) : Vec Ideal S8192x128 .f32 := iblk m c 1 t

/-- The accumulator after point `n`. -/
abbrev accAt (c : Dev nD) (n : ℕ) (hn : n < cfg0.N) : Vec Ideal S32x128 .f32 := (outsAt0 m c n hn).2

theorem N16 : cfg0.N = 16 := N_0

/-- The zero fill reads zero. -/
theorem zfill_apply (y : S32x128.Idx) : k0_pay1 (F := Ideal) y = 0 := by
  show shapeCast S32x128 (broadcast S32x128 (Scalar.ofBits (F := Ideal) .f32 0x00000000#32)) shapeCasts_S32x128_S32x128 y = _
  rw [shapeCast_self]; exact zeroE_eq

/-- The final cast `[32, 128] → [1, 32, 128]` at `(0, j, l)` reads `(j, l)`. -/
theorem outcast_apply (v : Vec Ideal S32x128 .f32) (j : Fin 32) (l : Fin 128) :
    k0_pay12 (F := Ideal) v (ix3 (0 : Fin 1) j l) = v (ix2 j l) :=
  shapeCast_ab_1ab_apply (a := 32) (b := 128) v shapeCasts_S32x128_S1x32x128 (0 : Fin 1) j l

/-- A core's first step. -/
theorem accAt_A (c : Dev nD) (t : Fin cfg0.N) (h0 : t.val % 8 = 0) (h1 : ¬t.val % 8 = 7) (j : Fin 32) (l : Fin 128) :
    accAt m c t.val t.isLt (ix2 j l) = blkRows (xblk m c t) (yblk m c t) j l := by
  unfold accAt
  rw [outsAt0_A m c t h0 h1]; dsimp only
  refine (congrFun (sout0_A_0_eq c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (yblk m c t)) (ix2 j l)).trans ?_
  rw [acc_apply, zfill_apply, zero_add]
  exact cat_final c (grid0.coords t) (ms0_0 t) (hs0_0 t) (ms0_1 t) (hs0_1 t) (ms0_2 t) (hs0_2 t) scM0_0 (Memref.isWhole_whole _) (xblk m c t) (yblk m c t) j l

/-- A middle step. -/
theorem accAt_B (c : Dev nD) (t : Fin cfg0.N) (h0 : ¬t.val % 8 = 0) (h1 : ¬t.val % 8 = 7) (j : Fin 32) (l : Fin 128) :
    accAt m c t.val t.isLt (ix2 j l)
      = accAt m c (t.val - 1) (Nat.lt_of_le_of_lt (Nat.sub_le _ _) t.isLt) (ix2 j l) + blkRows (xblk m c t) (yblk m c t) j l := by
  unfold accAt
  rw [outsAt0_B m c t h0 h1]; dsimp only
  refine (congrFun (sout0_B_0_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (yblk m c t) (outsAt0 m c (t.val - 1) (Nat.lt_of_le_of_lt (Nat.sub_le _ _) t.isLt)).2) (ix2 j l)).trans ?_
  rw [acc_apply]
  exact congrArg _ (cat_final c (grid0.coords t) (ms0_0 t) (hs0_0 t) (ms0_1 t) (hs0_1 t) (ms0_2 t) (hs0_2 t) scM0_0 (Memref.isWhole_whole _) (xblk m c t) (yblk m c t) j l)

/-- A core's last step: the accumulator, -/
theorem accAt_C (c : Dev nD) (t : Fin cfg0.N) (h0 : ¬t.val % 8 = 0) (h1 : t.val % 8 = 7) (j : Fin 32) (l : Fin 128) :
    accAt m c t.val t.isLt (ix2 j l)
      = accAt m c (t.val - 1) (Nat.lt_of_le_of_lt (Nat.sub_le _ _) t.isLt) (ix2 j l) + blkRows (xblk m c t) (yblk m c t) j l := by
  unfold accAt
  rw [outsAt0_C m c t h0 h1]; dsimp only
  refine (congrFun (sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) (outsAt0 m c (t.val - 1) (Nat.lt_of_le_of_lt (Nat.sub_le _ _) t.isLt)).2) (ix2 j l)).trans ?_
  rw [acc_apply]
  exact congrArg _ (cat_final c (grid0.coords t) (ms0_0 t) (hs0_0 t) (ms0_1 t) (hs0_1 t) (ms0_2 t) (hs0_2 t) scM0_0 (Memref.isWhole_whole _) (xblk m c t) (yblk m c t) j l)

/-- and the output block it stores: the accumulator under a leading unit axis. -/
theorem out_C (c : Dev nD) (t : Fin cfg0.N) (h0 : ¬t.val % 8 = 0) (h1 : t.val % 8 = 7) (j : Fin 32) (l : Fin 128) :
    (outsAt0 m c t.val t.isLt).1 (ix3 (0 : Fin 1) j l) = accAt m c t.val t.isLt (ix2 j l) := by
  unfold accAt
  rw [outsAt0_C m c t h0 h1]; dsimp only
  rw [out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) _,
    sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (yblk m c t) _]
  exact outcast_apply _ j l

/-! ## The accumulator as a sum over the core's blocks so far -/

/-- What point `p`'s block pair adds at `(j, l)` (zero past the grid). -/
def bsum (c : Dev nD) (j : Fin 32) (l : Fin 128) (p : ℕ) : EReal :=
  if h : p < cfg0.N then blkRows (xblk m c ⟨p, h⟩) (yblk m c ⟨p, h⟩) j l else 0

/-- After point `n` the accumulator holds the sum over the points of `n`'s core up to `n`. -/
theorem accAt_sum (c : Dev nD) (j : Fin 32) (l : Fin 128) :
    ∀ (n : ℕ) (hn : n < cfg0.N), accAt m c n hn (ix2 j l) = ∑ s ∈ Finset.range (n % 8 + 1), bsum m c j l (n - n % 8 + s)
  | 0, hn => by
    rw [accAt_A m c ⟨0, hn⟩ rfl (by show ¬(0 : ℕ) % 8 = 7; decide) j l]
    simp only [Nat.zero_mod, Nat.sub_zero, Nat.zero_add, Finset.sum_range_one, bsum, dif_pos hn]
  | n + 1, hn => by
    by_cases h0 : (n + 1) % 8 = 0
    · have h1 : ¬(n + 1) % 8 = 7 := by omega
      rw [accAt_A m c ⟨n + 1, hn⟩ h0 h1 j l, h0]
      simp only [Nat.sub_zero, Nat.zero_add, Finset.sum_range_one, Nat.add_zero, bsum, dif_pos hn]
    · have ih := accAt_sum c j l n (Nat.lt_of_succ_lt hn)
      have hstep : accAt m c (n + 1) hn (ix2 j l)
          = accAt m c n (Nat.lt_of_succ_lt hn) (ix2 j l) + blkRows (xblk m c ⟨n + 1, hn⟩) (yblk m c ⟨n + 1, hn⟩) j l := by
        by_cases h1 : (n + 1) % 8 = 7
        · exact accAt_C m c ⟨n + 1, hn⟩ h0 h1 j l
        · exact accAt_B m c ⟨n + 1, hn⟩ h0 h1 j l
      have hm : (n + 1) % 8 = n % 8 + 1 := by omega
      have hb : n + 1 - (n % 8 + 1) = n - n % 8 := by omega
      rw [hstep, ih, hm, hb, Finset.sum_range_succ (n := n % 8 + 1)]
      refine congrArg _ ?_
      have hp : n - n % 8 + (n % 8 + 1) = n + 1 := by have := Nat.mod_le n 8; omega
      rw [hp]; unfold bsum; rw [dif_pos hn]

end Cert.Ece.K

end
-- ==== Proof.KArr.lean ====
import proofs.«416669_j55327768707242_3_alg».proof.Proof.KGrid

/-! # The output array after the region

Only a core's last step writes its output block back; block `c` of the `[2, 32, 128]` output is core `c`'s accumulator
after its eight steps, so entry `(c, j, l)` is the sum over the core's eight block pairs of their column sums. -/

set_option maxRecDepth 16384

noncomputable section

namespace Cert.Ece.K

open Idealize.ShloMosaic Idealize.ShloMosaic.ValueIdx Idealize.SL.Sem
open Cert.KernelIdeal Cert.KernelIdeal.Gen Cert.Ece

variable (m : (ℓ : Loc nD τ sig) → Buf (Elt Ideal) ℓ)

/-- The output array: at `(c, j, l)` the sum over core `c`'s eight points `8c … 8c + 7` of what each adds. -/
def Gout (c : Dev nD) : S2x32x128.Idx → EReal := fun a =>
  ∑ s ∈ Finset.range 8, bsum m c (a 1) (a 2) (8 * (a 0).val + s)

/-- The output window's block index at point `t` is `(t / 8, 0, 0)` — decided over the grid. -/
theorem out_idx : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- The output block is written back exactly at a core's last step. -/
theorem out_flush : ∀ t : Fin cfg0.N, (cfg0.win 2).flush t = true ↔ t.val % 8 = 7 :=
  (by decide +kernel : ∀ t : Fin grid0.N, _)

/-- What a flushing point writes back is its block of `Gout`. -/
theorem flushed_out (c : Dev nD) (t : Fin cfg0.N) (hf : (cfg0.win 2).flush t = true) :
    (dats (F := Ideal) m 0 c).flushed 2 t = ((cfg0.win 2).blk t).view.read (Elt Ideal) (Gout m c) := by
  have h7 : t.val % 8 = 7 := (out_flush t).mp hf
  have hN : t.val < 16 := lt_of_lt_of_eq t.isLt N16
  obtain ⟨e0, e1, e2⟩ := out_idx t
  show (cfg0.win 2).cut (grid0.coords t) ((dats m 0 c).after 2 t) = _
  rw [after0_2]
  funext y
  obtain ⟨u, j, l, rfl⟩ : ∃ (u : Fin 1) (j : Fin 32) (l : Fin 128), y = ix3 u j l := ⟨y 0, y 1, y 2, eq_ix3 y⟩
  obtain rfl : u = 0 := Subsingleton.elim _ _
  show (outsAt0 m c t.val t.isLt).1 (ix3 (0 : Fin 1) j l) = Gout m c (((cfg0.win 2).blk t).view.emb (ix3 (0 : Fin 1) j l))
  have he : ((cfg0.win 2).blk t).view.emb (ix3 (0 : Fin 1) j l) = ix3 (⟨t.val / 8, by omega⟩ : Fin 2) j l := by
    funext a; apply Fin.ext
    match a with
    | ⟨0, _⟩ => show win0_2.index t (0 : Fin 3) * 1 + 1 * 0 = t.val / 8; omega
    | ⟨1, _⟩ => show win0_2.index t (1 : Fin 3) * 32 + 1 * j.val = j.val; omega
    | ⟨2, _⟩ => show win0_2.index t (2 : Fin 3) * 128 + 1 * l.val = l.val; omega
  rw [he, out_C m c t (by omega) h7 j l, accAt_sum m c j l t.val t.isLt, h7]
  show _ = ∑ s ∈ Finset.range 8, bsum m c j l (8 * (t.val / 8) + s)
  have hb : t.val - 7 = 8 * (t.val / 8) := by omega
  rw [hb]

/-- An index of the output array is in point `t`'s block iff each coordinate is in the block's range on its axis. -/
theorem mem_blk_out (t : Fin cfg0.N) (i : S2x32x128.Idx) :
    i ∈ ((cfg0.win 2).blk t).view.set ↔ ∀ a : Fin 3, win0_2.index t a * S1x32x128.size a ≤ (i a).val
      ∧ (i a).val < win0_2.index t a * S1x32x128.size a + S1x32x128.size a := by
  show i ∈ ((View.whole main_v2).slice (win0_2.rect t)).set ↔ _
  rw [View.set_slice_whole, Rect.mem_set_unit]
  exact Iff.rfl

/-- Every index of the output array is in the block of its core's last step. -/
theorem cover_out (i : S2x32x128.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 128 := (i 2).isLt
  let t : Fin cfg0.N := ⟨8 * (i 0).val + 7, by rw [N16]; omega⟩
  have ht : t.val = 8 * (i 0).val + 7 := rfl
  obtain ⟨e0, e1, e2⟩ := out_idx t
  refine ⟨t, (out_flush t).mpr (by omega), ?_⟩
  rw [mem_blk_out]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- THE OUTPUT ARRAY after the region. -/
theorem arr_out (c : Dev nD) : (dats (F := Ideal) m 0 c).arrAt 2 cfg0.N = Gout m c :=
  (dats (F := Ideal) m 0 c).arrAt_eq_of_cover 2 (Gout m c) (fun t hf => flushed_out m c t hf) cover_out

end Cert.Ece.K

end
-- ==== Proof.KSamples.lean ====
import proofs.«416669_j55327768707242_3_alg».proof.Proof.KArr

/-! # The blocks as samples of the two argument arrays

The host reshapes each `[N, 1]` argument to `[131072, 128]` (sample `i` at row `i / 128`, lane `i % 128`), and point `t`
stages rows `8192 t … 8192 t + 8191` of each. So entry `(R, l)` of point `t`'s block is sample
`(8192 t + R) · 128 + l`, and the output array is `Cert.Ece.arrK` of the two arguments. -/

set_option maxRecDepth 16384

noncomputable section

namespace Cert.Ece.K

open Idealize.ShloMosaic Idealize.ShloMosaic.ValueIdx Idealize.SL.Sem
open Cert.KernelIdeal Cert.KernelIdeal.Gen Cert.Ece

variable (m : (ℓ : Loc nD τ sig) → Buf (Elt Ideal) ℓ)

/-- The two argument arrays as launched. -/
abbrev argX (c : Dev nD) : SArg.Idx → EReal :=
  (m ((c.tc : Thread nD τ).loc main_arg0) : Buf (Elt Ideal) ((c.tc : Thread nD τ).loc main_arg0))
abbrev argY (c : Dev nD) : SArg.Idx → EReal :=
  (m ((c.tc : Thread nD τ).loc main_arg1) : Buf (Elt Ideal) ((c.tc : Thread nD τ).loc main_arg1))

/-- The region finds the first window's array at the logits reshaped, -/
theorem V_v0 (c : Dev nD) : (V m c main_v0 : S131072x128.Idx → EReal)
    = shapeCast S131072x128 (argX m c) shapeCasts_S16777216x1_S131072x128 := by
  show StableHlo.after hostOps0 (fun b => m (c, b)) (Proc.devRef .tc main_v0) = _
  after_results
  rfl

/-- and the second's at the labels reshaped. -/
theorem V_v1 (c : Dev nD) : (V m c main_v1 : S131072x128.Idx → EReal)
    = shapeCast S131072x128 (argY m c) shapeCasts_S16777216x1_S131072x128 := by
  show StableHlo.after hostOps0 (fun b => m (c, b)) (Proc.devRef .tc main_v1) = _
  after_results
  rfl

/-- The input windows' block index at point `t` is `(t, 0)` — decided over the grid. -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A reshaped argument at `(ρ, l)` is sample `128 ρ + l`. -/
theorem reshaped_apply (X : SArg.Idx → EReal) (i : Fin NN) (a : S131072x128.Idx)
    (h : (a 0).val * 128 + (a 1).val = i.val) :
    shapeCast S131072x128 X shapeCasts_S16777216x1_S131072x128 a = smp X i := by
  unfold smp
  refine shapeCast_apply X _ a (ix2 i (0 : Fin 1)) ?_
  rw [Shape.rowMajor_val_two, Shape.rowMajor_val_two]
  show i.val * 1 + 0 = (a 0).val * 128 + (a 1).val
  omega

theorem xblk_apply (c : Dev nD) (t : Fin cfg0.N) (R : Fin 8192) (l : Fin 128) :
    xblk m c t (ix2 R l) = smp (argX m c) (flat ⟨t.val, lt_of_lt_of_eq t.isLt N16⟩ R l) := by
  obtain ⟨e0, e1, e2, e3⟩ := in_idx t
  show V m c main_v0 (((cfg0.win 0).blk t).view.emb (ix2 R l)) = _
  rw [V_v0]
  refine reshaped_apply _ _ _ ?_
  show (win0_0.index t (0 : Fin 2) * 8192 + 1 * R.val) * 128 + (win0_0.index t (1 : Fin 2) * 128 + 1 * l.val) = (t.val * 8192 + R.val) * 128 + l.val
  rw [e0, e1]; omega

theorem yblk_apply (c : Dev nD) (t : Fin cfg0.N) (R : Fin 8192) (l : Fin 128) :
    yblk m c t (ix2 R l) = smp (argY m c) (flat ⟨t.val, lt_of_lt_of_eq t.isLt N16⟩ R l) := by
  obtain ⟨e0, e1, e2, e3⟩ := in_idx t
  show V m c main_v1 (((cfg0.win 1).blk t).view.emb (ix2 R l)) = _
  rw [V_v1]
  refine reshaped_apply _ _ _ ?_
  show (win0_1.index t (0 : Fin 2) * 8192 + 1 * R.val) * 128 + (win0_1.index t (1 : Fin 2) * 128 + 1 * l.val) = (t.val * 8192 + R.val) * 128 + l.val
  rw [e2, e3]; omega

/-- What point `p` adds is Spec's `blockRow` of the two arguments. -/
theorem bsum_eq (c : Dev nD) (j : Fin 32) (l : Fin 128) (p : ℕ) (hp : p < 16) :
    bsum m c j l p = blockRow (argX m c) (argY m c) ⟨p, hp⟩ j l := by
  unfold bsum blockRow blkRows
  rw [dif_pos (lt_of_lt_of_eq hp N16.symm)]
  refine Finset.sum_congr rfl fun R _ => ?_
  rw [xblk_apply, yblk_apply]

/-- THE OUTPUT ARRAY as a function of the two arguments. -/
theorem Gout_eq (c : Dev nD) (cc : Fin 2) (j : Fin 32) (l : Fin 128) :
    Gout m c (ix3 cc j l) = arrK (argX m c) (argY m c) cc j l := by
  unfold arrK
  show ∑ s ∈ Finset.range 8, bsum m c j l (8 * cc.val + s) = _
  rw [Finset.sum_range]
  refine Finset.sum_congr rfl fun s _ => ?_
  have hc := cc.isLt
  have hs := s.isLt
  rw [bsum_eq m c j l (8 * cc.val + s.val) (by omega)]
  exact congrArg (fun t => blockRow (argX m c) (argY m c) t j l) (Fin.ext (by show 8 * cc.val + s.val = cc.val * 8 + s.val; omega))

end Cert.Ece.K

end
-- ==== Proof.KTail.lean ====
import proofs.«416669_j55327768707242_3_alg».proof.Proof.Gen.KernelIdeal.Frame
import proofs.«416669_j55327768707242_3_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.Lib.ValueIdxRank1
import Idealize.ShloMosaic.PureOps.Ideal.Laws

/-! # The kernel program's host epilogue as a pure function of the region's output array

After the region, `@main` runs some fifty host operations on the `[2, 32, 128]` array the region leaves: two single-axis
sums down to 32 row sums, five slices of those, three nine-entry sums subtracted from a total (the bin-9 entries), three
concatenations to ten-entry vectors (counts, probability sums, label sums), a select on "bin index at least five" for the
accuracy sums, then the ten per-bin terms and their sum.

This file names each stage as a function of the array (`rsV`, `tail9`, `cntV`, `confV`, `labV`, `accV`, `contribV`,
`epi`), reads each at an index against the specification's `rsOf`, `cntK`, `labK`, `confK`, `accK`, `term`, `eceOf`
(`epi_eq`), shows that the operations' composed value at the result buffer is `epi` of whatever the array's buffer holds
(`tail_of`), and joins the two at the array the region leaves (`tail_value`). -/

set_option maxRecDepth 16384

noncomputable section

namespace Cert.Ece.KTail

open Cert.KernelIdeal Cert.KernelIdeal.Gen
open Idealize.ShloMosaic Idealize.ShloMosaic.TcCoe Idealize.ShloMosaic.StableHlo Idealize.ShloMosaic.ValueIdx
open scoped BigOperators

/-! ## The epilogue, stage by stage, as pure functions of the region's output array -/

/-- The row sums as the program forms them: the array summed over its first axis, then over its last, each from zero. -/
def rsV (A : FVec Ideal S2x32x128 .f32) : FVec Ideal S32 .f32 :=
  Host.reduceAdd (Host.reduceAdd A (constant (F := Ideal) S_ .f32 0x00000000#32) Gen.reducesTo_S2x32x128_S32x128_d0 Gen.h_S_)
    (constant (F := Ideal) S_ .f32 0x00000000#32) Gen.reducesTo_S32x128_S32_d1 Gen.h_S_

/-- Nine entries followed by a total less their sum: the ten-entry vector the program concatenates. -/
def tail9 (v : FVec Ideal S9 .f32) (tot : FVec Ideal S_ .f32) : FVec Ideal S10 .f32 :=
  concatenate S10 0 [⟨S9, v⟩, ⟨S1, fun i => shapeCast S1 (subf tot (Host.reduceAdd v (constant (F := Ideal) S_ .f32 0x00000000#32) Gen.reducesTo_S9_S_d0 Gen.h_S_)) Gen.shapeCasts_S_S1 i⟩] Gen.concatenates_S9_S1_S10_d0

/-- One row sum as a rank-0 value: a one-entry slice reshaped. -/
def rowV (A : FVec Ideal S2x32x128 .f32) (off : Nat) (h : S32.Slices ![off] S1) : FVec Ideal S_ .f32 :=
  fun i => shapeCast S_ (extractStridedSlice S1 ![off] (rsV A) h) Gen.shapeCasts_S1_S_ i

/-- The ten counts. -/
def cntV (A : FVec Ideal S2x32x128 .f32) : FVec Ideal S10 .f32 :=
  tail9 (extractStridedSlice S9 ![0] (rsV A) Gen.slices_S32_S9_0) (constant (F := Ideal) S_ .f32 0x4B800000#32)
/-- The ten probability sums. -/
def confV (A : FVec Ideal S2x32x128 .f32) : FVec Ideal S10 .f32 :=
  tail9 (extractStridedSlice S9 ![18] (rsV A) Gen.slices_S32_S9_18) (rowV A 27 Gen.slices_S32_S1_27)
/-- The ten label sums. -/
def labV (A : FVec Ideal S2x32x128 .f32) : FVec Ideal S10 .f32 :=
  tail9 (extractStridedSlice S9 ![9] (rsV A) Gen.slices_S32_S9_9) (rowV A 28 Gen.slices_S32_S1_28)
/-- The ten accuracy sums: the label sum where the bin index is at least five, else count less label sum. -/
def accV (A : FVec Ideal S2x32x128 .f32) : FVec Ideal S10 .f32 :=
  select (cmpi .sge (iotaInDim S10 32 0) (broadcastInDim S10 ![] Gen.bcast_S_S10 (constantI S_ 32 5#32))) (labV A) (subf (cntV A) (labV A))
/-- The largest of each count and one. -/
def safeV (A : FVec Ideal S2x32x128 .f32) : FVec Ideal S10 .f32 :=
  maximumf (cntV A) (broadcastInDim S10 ![] Gen.bcast_S_S10 (constant (F := Ideal) S_ .f32 0x3F800000#32))
/-- The ten per-bin terms. -/
def contribV (A : FVec Ideal S2x32x128 .f32) : FVec Ideal S10 .f32 :=
  select (cmpf (F := Ideal) .ogt (cntV A) (broadcastInDim S10 ![] Gen.bcast_S_S10 (constant (F := Ideal) S_ .f32 0x00000000#32)))
    (mulf (Host.divf (cntV A) (broadcastInDim S10 ![] Gen.bcast_S_S10 (constant (F := Ideal) S_ .f32 0x4B800000#32)))
      (Host.absf (subf (Host.divf (confV A) (safeV A)) (Host.divf (accV A) (safeV A)))))
    (broadcastInDim S10 ![] Gen.bcast_S_S10 (id (constant (F := Ideal) S_ .f32 0x00000000#32)))
/-- The epilogue's result: the terms summed from zero, as a one-entry vector. -/
def epi (A : FVec Ideal S2x32x128 .f32) : FVec Ideal S1 .f32 :=
  fun i => shapeCast S1 (Host.reduceAdd (contribV A) (constant (F := Ideal) S_ .f32 0x00000000#32) Gen.reducesTo_S10_S_d0 Gen.h_S_) Gen.shapeCasts_S_S1 i

/-! ## Each stage read at an index -/

/-- Row sum `j` is the specification's: the two single-axis sums, the reduced coordinate inserted in its place. -/
theorem rsV_apply (A : FVec Ideal S2x32x128 .f32) (j : Fin 32) : rsV A (ix1 j) = rsOf A j := by
  unfold rsV rsOf
  rw [hostReduceAdd_apply, Ideal.hostReduceAdd_single _ (by decide : S32x128.Reduces [1] S32)]
  refine congrArg (fun z => zeroE + z) (Finset.sum_congr rfl fun l _ => ?_)
  rw [hostReduceAdd_apply, Ideal.hostReduceAdd_single _ (by decide : S2x32x128.Reduces [0] S32x128)]
  refine congrArg (fun z => zeroE + z) (Finset.sum_congr rfl fun c _ => ?_)
  exact congrArg A (funext fun a => match a with | ⟨0, _⟩ => rfl | ⟨1, _⟩ => rfl | ⟨2, _⟩ => rfl)

/-- A nine-entry slice at offset `off` reads the entry `off` further on. -/
theorem slice9_apply (v : FVec Ideal S32 .f32) (off : Nat) (h : S32.Slices ![off] S9) (b' : Fin 9) (hb : off + b'.val < 32) :
    extractStridedSlice S9 ![off] v h (ix1 b') = v (ix1 ⟨off + b'.val, hb⟩) :=
  extractStridedSlice_apply ![off] v h (ix1 b') (ix1 ⟨off + b'.val, hb⟩) (fun a => match a with | ⟨0, _⟩ => rfl)

/-- Every index of the one-entry shape is its only one. -/
theorem idx1_eq (j : S1.Idx) : j = ix1 (0 : Fin 1) := (eq_ix1 j).trans (congrArg ix1 (Subsingleton.elim (α := Fin 1) (j 0) 0))

/-- A one-entry slice at offset `off`, reshaped to rank 0, is row sum `off`. -/
theorem rowV_apply (A : FVec Ideal S2x32x128 .f32) (off : Nat) (h : S32.Slices ![off] S1) (hb : off < 32) :
    rowV A off h ix0 = rsOf A ⟨off, hb⟩ := by
  show extractStridedSlice S1 ![off] (rsV A) h (Shape.reshapeEquiv Gen.shapeCasts_S1_S_ ix0) = _
  rw [idx1_eq (Shape.reshapeEquiv Gen.shapeCasts_S1_S_ ix0),
    extractStridedSlice_apply ![off] (rsV A) h (ix1 (0 : Fin 1)) (ix1 ⟨off, hb⟩) (fun a => match a with | ⟨0, _⟩ => rfl)]
  exact rsV_apply A ⟨off, hb⟩

/-- Below the ninth entry the concatenation reads its first piece. -/
theorem tail9_lt (v : FVec Ideal S9 .f32) (tot : FVec Ideal S_ .f32) (b : Fin 10) (h : b.val < 9) :
    tail9 v tot (ix1 b) = v (ix1 ⟨b.val, h⟩) := by
  unfold tail9
  exact concatenate_pair_apply_left (0 : Fin S10.rank) v _ Gen.concatenates_S9_S1_S10_d0 (ix1 b) rfl (ix1 ⟨b.val, h⟩)
    (fun a => match a with | ⟨0, _⟩ => rfl)

/-- At the ninth entry it reads its second piece: the total less the sum of the nine, that sum taken from zero. -/
theorem tail9_ge (v : FVec Ideal S9 .f32) (tot : FVec Ideal S_ .f32) (b : Fin 10) (h : ¬ b.val < 9) :
    tail9 v tot (ix1 b) = tot ix0 - (zeroE + ∑ b' : Fin 9, v (ix1 b')) := by
  unfold tail9
  refine (concatenate_pair_apply_right (0 : Fin S10.rank) v _ Gen.concatenates_S9_S1_S10_d0 (ix1 b) rfl rfl (ix1 (0 : Fin 1))
    (fun a ha => absurd (Subsingleton.elim _ _) ha) (by have := b.isLt; show 0 + 9 = b.val; omega)).trans ?_
  show subf tot (Host.reduceAdd v (constant (F := Ideal) S_ .f32 0x00000000#32) Gen.reducesTo_S9_S_d0 Gen.h_S_) (Shape.reshapeEquiv Gen.shapeCasts_S_S1 (ix1 (0 : Fin 1))) = _
  rw [eq_ix0 (Shape.reshapeEquiv Gen.shapeCasts_S_S1 (ix1 (0 : Fin 1))), subf_apply, hostReduceAdd_apply,
    Ideal.hostReduceAdd_total _ (fun b => b.elim0)]
  exact congrArg (fun z => tot ix0 - (zeroE + z)) (Equiv.sum_comp (idxEquiv1 (n := 9)).symm v).symm

/-- Nine row sums from row `off` on, then a total less their sum: entry `b`. -/
theorem part_apply (A : FVec Ideal S2x32x128 .f32) (off : Nat) (h9 : S32.Slices ![off] S9) (tot : FVec Ideal S_ .f32)
    (hoff : off + 9 ≤ 32) (b : Fin 10) :
    tail9 (extractStridedSlice S9 ![off] (rsV A) h9) tot (ix1 b)
      = if h : b.val < 9 then rsOf A ⟨off + b.val, by omega⟩
        else tot ix0 - (zeroE + ∑ b' : Fin 9, rsOf A ⟨off + b'.val, by have := b'.isLt; omega⟩) := by
  by_cases h : b.val < 9
  · rw [dif_pos h, tail9_lt _ _ b h, slice9_apply _ off h9 ⟨b.val, h⟩ (by show off + b.val < 32; omega)]
    exact rsV_apply A _
  · rw [dif_neg h, tail9_ge _ _ b h]
    refine congrArg (fun z => tot ix0 - (zeroE + z)) (Finset.sum_congr rfl fun b' _ => ?_)
    rw [slice9_apply _ off h9 b' (by have := b'.isLt; omega)]
    exact rsV_apply A _

/-- The counts are the specification's. -/
theorem cntV_apply (A : FVec Ideal S2x32x128 .f32) (b : Fin 10) : cntV A (ix1 b) = cntK (rsOf A) b := by
  unfold cntV cntK
  rw [part_apply A 0 _ _ (by decide) b]
  by_cases h : b.val < 9
  · rw [dif_pos h, dif_pos h]; exact congrArg (rsOf A) (Fin.ext (Nat.zero_add _))
  · rw [dif_neg h, dif_neg h]
    exact congrArg (fun z => nE - (zeroE + z)) (Finset.sum_congr rfl fun b' _ => congrArg (rsOf A) (Fin.ext (Nat.zero_add _)))

/-- The label sums are the specification's. -/
theorem labV_apply (A : FVec Ideal S2x32x128 .f32) (b : Fin 10) : labV A (ix1 b) = labK (rsOf A) b := by
  unfold labV labK
  rw [part_apply A 9 _ _ (by decide) b, rowV_apply A 28 _ (by decide)]

/-- The probability sums are the specification's. -/
theorem confV_apply (A : FVec Ideal S2x32x128 .f32) (b : Fin 10) : confV A (ix1 b) = confK (rsOf A) b := by
  unfold confV confK
  rw [part_apply A 18 _ _ (by decide) b, rowV_apply A 27 _ (by decide)]

/-- The signed comparison of a bin index with five, as a bit. -/
theorem sge5 (b : Fin 10) : IntOp.cmpi .sge (BitVec.ofNat 32 b.val) 5#32 = if 5 ≤ b.val then 1#1 else 0#1 := by
  revert b; decide

/-- The accuracy sums are the specification's. -/
theorem accV_apply (A : FVec Ideal S2x32x128 .f32) (b : Fin 10) : accV A (ix1 b) = accK (rsOf A) b := by
  show Scalar.select (IntOp.cmpi .sge (BitVec.ofNat 32 b.val) 5#32) (labV A (ix1 b)) (cntV A (ix1 b) - labV A (ix1 b)) = _
  rw [sge5, labV_apply, cntV_apply]
  unfold accK
  by_cases h : 5 ≤ b.val
  · rw [if_pos h, if_pos h]; exact select_one _ _
  · rw [if_neg h, if_neg h]; exact select_zero _ _

/-- Each per-bin term is the specification's. -/
theorem contribV_apply (A : FVec Ideal S2x32x128 .f32) (b : Fin 10) :
    contribV A (ix1 b) = term (cntK (rsOf A) b) (accK (rsOf A) b) (confK (rsOf A) b) := by
  show Scalar.select (FloatOps.cmpf (F := Ideal) (φ := .f32) .ogt (cntV A (ix1 b)) zeroE)
      (Ideal.div (cntV A (ix1 b)) nE * FloatOps.hostAbsf (F := Ideal) (φ := .f32)
        (Ideal.div (confV A (ix1 b)) (max (cntV A (ix1 b)) oneE) - Ideal.div (accV A (ix1 b)) (max (cntV A (ix1 b)) oneE)))
      zeroE = _
  rw [cntV_apply, confV_apply, accV_apply]
  rfl

/-- The epilogue is the calibration error of the three per-bin vectors. -/
theorem epi_eq (A : FVec Ideal S2x32x128 .f32) :
    epi A = fun _ => eceOf (cntK (rsOf A)) (accK (rsOf A)) (confK (rsOf A)) := by
  funext i
  show Host.reduceAdd (contribV A) (constant (F := Ideal) S_ .f32 0x00000000#32) Gen.reducesTo_S10_S_d0 Gen.h_S_
      (Shape.reshapeEquiv Gen.shapeCasts_S_S1 i) = _
  rw [eq_ix0 (Shape.reshapeEquiv Gen.shapeCasts_S_S1 i), hostReduceAdd_apply, Ideal.hostReduceAdd_total _ (fun b => b.elim0)]
  unfold eceOf
  refine congrArg (fun z => zeroE + z) ?_
  rw [← Equiv.sum_comp (idxEquiv1 (n := 10)).symm (contribV A)]
  exact Finset.sum_congr rfl fun b _ => contribV_apply A b

/-! ## The operations' composed value -/

/-- Rewrites each operation's result at its own buffer to its function's value and at any other buffer to what was
    there, one rewrite at a time: the form that also reaches the operands listed inside a concatenation. -/
macro "results_rw" : tactic =>
  `(tactic| repeat (first
    | rw [nullary_result] | rw [unary_result] | rw [binary_result] | rw [ternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

set_option maxHeartbeats 4000000 in
/-- From any buffer contents `W`, the operations after the region leave in the result buffer `epi` of what `W` holds
    at the region's output array: every operation's result unfolded in turn, the casts of the two called functions'
    typed references removed, and what is left is `epi`'s definition. -/
theorem tail_of (W : Valuation τ sig (Elt Ideal)) :
    StableHlo.after (List.flatten [hostOps1, hostOps1_1, hostOps1_2, hostOps1_3, hostOps1_4]) W (Proc.devRef .tc main_v42)
      = epi (W (Proc.devRef .tc main_v2)) := by
  simp only [hostOps1, hostOps1_1, hostOps1_2, hostOps1_3, hostOps1_4, List.flatten_cons, List.flatten_nil, List.append_nil, List.cons_append, List.nil_append]
  after_results_simp
  results_rw
  simp only [TRef.ofBuf, TRef.toBuf, cast_eq]
  rfl

/-- THE EPILOGUE'S VALUE: the result buffer after the host operations that follow the region holds the calibration
    error of the three per-bin vectors the specification derives from the row sums of the region's output array. -/
theorem tail_value (m : (ℓ : Loc nD τ sig) → Buf (Elt Ideal) ℓ) (c : Dev nD) :
    Pipeline.afterTail₀ cfgs (dats (F := Ideal) m) 0 (V0 m) [hostOps1, hostOps1_1, hostOps1_2, hostOps1_3, hostOps1_4] c main_v42
      = fun _ => Cert.Ece.eceOf (Cert.Ece.cntK (Cert.Ece.rsOf ((dats (F := Ideal) m 0 c).arrAt 2 cfg0.N)))
                                (Cert.Ece.accK (Cert.Ece.rsOf ((dats (F := Ideal) m 0 c).arrAt 2 cfg0.N)))
                                (Cert.Ece.confK (Cert.Ece.rsOf ((dats (F := Ideal) m 0 c).arrAt 2 cfg0.N))) := by
  unfold Pipeline.afterTail₀
  refine (tail_of _).trans ?_
  refine (congrArg epi (Pipeline.withArrays_arr spec0 launch0.win.arr_inj c _ _ 2)).trans ?_
  exact epi_eq _

end Cert.Ece.KTail

end
-- ==== Proof.Bridge.lean ====
import proofs.«416669_j55327768707242_3_alg».proof.Proof.Spec
import Mathlib.Algebra.BigOperators.Fin
import Mathlib.Logic.Equiv.Fin.Basic
import Mathlib.Data.EReal.Operations
import Mathlib.Analysis.SpecialFunctions.Exp
import Mathlib.Algebra.Order.Floor.Ring
import Mathlib.Tactic.IntervalCases
import Mathlib.Tactic.Linarith
import Mathlib.Tactic.Positivity
import Mathlib.Tactic.Ring
import Mathlib.Tactic.NormNum

/-! # The algebra that joins the kernel's route and the reference's

Two facts over the shared specification, with no program in sight.

* `rowsum_flat`: the epilogue's row sums of the kernel's `[2, 32, 128]` output — over the two cores, then over the 128
  lanes, each core having summed its eight blocks of 8192 rows — are sums over all `N = 2 · 8 · 8192 · 128` samples:
  extended-real addition is commutative and associative, and (lane, core, block, row) ↦ flat index is the mixed-radix
  bijection onto `Fin N`.
* `bridge`: for real logits and labels in `{0, 1}` the kernel's per-bin vectors are the reference's. Every summand is a
  real (an indicator, a logistic value in `(0, 1)`, a label), so all sums are taken in the reals, where the kernel's
  recovery of bin 9 by subtraction from the totals is sound: every sample lies in exactly one of the ten bins. The
  accuracy indicator of a sample in bin `b` is `1 - y` for `b ≤ 4` (then `⌈10 p⌉ ≤ 5`, that is `p ≤ 1/2`: prediction 0) and
  `y` for `b ≥ 5` (prediction 1), which is the kernel's "count less label sum" and "label sum". -/

noncomputable section

namespace Cert.Ece

open Idealize.ShloMosaic Idealize.ShloMosaic.ValueIdx

/-! ## The literals -/

theorem zeroE_eq : zeroE = 0 := Ideal.ofBits_zero_f32
theorem halfE_eq : halfE = (((1 : ℝ) / 2 : ℝ) : EReal) := by
  simp [Ideal.ofBits, Ideal.ieee, -EReal.coe_mul]; norm_num
theorem tenE_eq : tenE = ((10 : ℝ) : EReal) := by
  simp [Ideal.ofBits, Ideal.ieee, -EReal.coe_mul]; norm_num
theorem nE_eq : nE = ((16777216 : ℝ) : EReal) := by
  simp [Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One sample with a real logit -/

/-- The logistic function on the reals. -/
def pR (r : ℝ) : ℝ := (1 + Real.exp (-r))⁻¹

theorem pR_pos (r : ℝ) : 0 < pR r := inv_pos.mpr (by positivity)
theorem pR_lt_one (r : ℝ) : pR r < 1 := inv_lt_one_of_one_lt₀ (by linarith [Real.exp_pos (-r)])

theorem prob_coe (r : ℝ) : prob (r : EReal) = (pR r : EReal) := Ideal.logistic_coe r

/-- The bin word of a sample with a real logit is a number `k ≤ 9`, and `k ≤ 4` exactly when the probability is at
    most one half: the probability `p` lies in `(0, 1)`, so `⌈10 p⌉` is one of `1, …, 10`, its conversion to an integer is
    exact, and the clip to `[0, 9]` does nothing. -/
theorem binw_coe (r : ℝ) :
    ∃ k : Fin 10, binw (r : EReal) = BitVec.ofNat 32 k.val ∧ (k.val ≤ 4 ↔ pR r ≤ 1 / 2) := by
  have h0 : 0 < pR r := pR_pos r
  have h1 : pR r < 1 := pR_lt_one r
  have hc1 : 1 ≤ ⌈pR r * 10⌉ := Int.one_le_ceil_iff.mpr (by positivity)
  have hc10 : ⌈pR r * 10⌉ ≤ 10 := Int.ceil_le.mpr (by push_cast; linarith)
  obtain ⟨k, hk⟩ : ∃ k : ℕ, ⌈pR r * 10⌉ = (k : ℤ) + 1 := ⟨(⌈pR r * 10⌉ - 1).toNat, by omega⟩
  have hk9 : k ≤ 9 := by omega
  refine ⟨⟨k, by omega⟩, ?_, ?_⟩
  · have e1 : prob (r : EReal) * tenE = ((pR r * 10 : ℝ) : EReal) := by
      rw [prob_coe, tenE_eq, ← EReal.coe_mul]
    have e2 : Ideal.fptosi 32 (Ideal.liftRound Int.ceil (prob (r : EReal) * tenE)) = BitVec.ofNat 32 (k + 1) := by
      rw [e1, Ideal.liftRound_coe, Ideal.fptosi, Ideal.toIntClamped_coe, hk]
      rw [if_pos (by positivity), Int.floor_intCast]
      have e3 : max (-((2 ^ (32 - 1) : ℕ) : ℤ)) (min (((2 ^ (32 - 1) : ℕ) : ℤ) - 1) ((k : ℤ) + 1))
          = ((k + 1 : ℕ) : ℤ) := by
        push_cast; omega
      rw [e3, BitVec.ofInt_natCast]
    unfold binw
    rw [e2]
    show _ = BitVec.ofNat 32 k
    interval_cases k <;> decide
  · show k ≤ 4 ↔ pR r ≤ 1 / 2
    constructor
    · intro h
      have h5 : ⌈pR r * 10⌉ ≤ 5 := by omega
      have := Int.ceil_le.mp h5
      push_cast at this
      linarith
    · intro h
      have h5 : ⌈pR r * 10⌉ ≤ 5 := Int.ceil_le.mpr (by push_cast; linarith)
      omega

/-- The kernel's indicator — the comparison's bit widened to a word and converted — is the reference's. -/
theorem hitK_eq_hit (x : EReal) (b : ℕ) : hitK x (BitVec.ofNat 32 b) = hit x b := by
  unfold hitK hit IntOp.cmpi
  show ((((BitVec.ofBool (binw x == BitVec.ofNat 32 b)).setWidth 32).toInt : ℝ) : EReal) = _
  by_cases h : binw x = BitVec.ofNat 32 b
  · have e : ((BitVec.ofBool true).setWidth 32).toInt = 1 := by decide
    rw [if_pos h, h, beq_self_eq_true, e]
    norm_num
  · have e : ((BitVec.ofBool false).setWidth 32).toInt = 0 := by decide
    rw [if_neg h, beq_eq_false_iff_ne.mpr h, e]
    norm_num

/-- With the bin word known, the indicator of bin `b` is 1 or 0 as the numbers agree. -/
theorem hit_of_binw {x : EReal} {k : Fin 10} (hk : binw x = BitVec.ofNat 32 k.val) {b : ℕ} (hb : b < 10) :
    hit x b = (((if k.val = b then 1 else 0 : ℝ)) : EReal) := by
  unfold hit
  have hkl := k.isLt
  have e : (BitVec.ofNat 32 k.val = BitVec.ofNat 32 b) ↔ k.val = b := by
    constructor
    · intro h
      have := congrArg BitVec.toNat h
      simp only [BitVec.toNat_ofNat] at this
      omega
    · intro h; rw [h]
  rw [hk]
  by_cases h : k.val = b
  · rw [if_pos (e.mpr h), if_pos h, EReal.coe_one]
  · rw [if_neg (fun h' => h (e.mp h')), if_neg h, EReal.coe_zero]

/-- The accuracy indicator of a sample with a real logit and a label in `{0, 1}`: where the probability is at most
    one half the prediction is 0 and the indicator is `1 - y`; else the prediction is 1 and the indicator is `y`. -/
theorem accOf_coe (r yr : ℝ) (hy : yr = 0 ∨ yr = 1) :
    accOf (r : EReal) (yr : EReal) = ((if pR r ≤ 1 / 2 then 1 - yr else yr : ℝ) : EReal) := by
  unfold accOf
  show ((((Ideal.cmp .oeq ((((Ideal.cmp .ogt (prob (r : EReal)) halfE).toNat : ℝ)) : EReal) (yr : EReal)).toNat : ℝ)) : EReal) = _
  rw [prob_coe, halfE_eq]
  unfold Ideal.cmp
  simp only [EReal.coe_lt_coe_iff, EReal.coe_eq_coe_iff]
  by_cases hp : pR r ≤ 1 / 2
  · rw [if_pos hp, decide_eq_false (not_lt.mpr hp)]
    rcases hy with rfl | rfl <;> simp
  · rw [if_neg hp, decide_eq_true (not_le.mp hp)]
    rcases hy with rfl | rfl <;> simp

/-! ## The rows of the kernel's accumulator, per sample -/

theorem gK_cnt (x y : EReal) {b : ℕ} (hb : b < 9) : gK b x y = hit x b := by
  rw [gK, if_pos hb, hitK_eq_hit]
theorem gK_lab (x y : EReal) {b : ℕ} (hb : b < 9) : gK (9 + b) x y = hit x b * y := by
  rw [gK, if_neg (by omega), if_pos (by omega), Nat.add_sub_cancel_left, hitK_eq_hit]
theorem gK_conf (x y : EReal) {b : ℕ} (hb : b < 9) : gK (18 + b) x y = hit x b * prob x := by
  rw [gK, if_neg (by omega), if_neg (by omega), if_pos (by omega), Nat.add_sub_cancel_left, hitK_eq_hit]
theorem gK_27 (x y : EReal) : gK 27 x y = prob x := by
  rw [gK, if_neg (by omega), if_neg (by omega), if_neg (by omega), if_pos rfl]
theorem gK_28 (x y : EReal) : gK 28 x y = y := by
  rw [gK, if_neg (by omega), if_neg (by omega), if_neg (by omega), if_neg (by omega), if_pos rfl]

/-! ## Sums over a finite family of samples, in the reals

Every sample `i` has a bin `K i` among ten, a real probability `p i` and a real label `yr i`. -/

section Core

variable {ι : Type} [Fintype ι] (K : ι → Fin 10)

/-- The indicator that sample `i` is in bin `b`, as a real. -/
def hR (i : ι) (b : ℕ) : ℝ := if (K i).val = b then 1 else 0

/-- Every sample is in exactly one of the ten bins. -/
theorem sum_hR (i : ι) : ∑ b : Fin 10, hR K i b.val = 1 := by
  unfold hR
  rw [Finset.sum_eq_single (K i)]
  · rw [if_pos rfl]
  · intro b _ hb
    rw [if_neg]
    intro h
    exact hb (Fin.ext h.symm)
  · intro h
    exact absurd (Finset.mem_univ _) h

/-- Bin 9 by subtraction: a weighted total less the weighted sums of bins 0–8 is the weighted sum of bin 9. -/
theorem recover (v : ι → ℝ) :
    (∑ i, v i) - ∑ b' : Fin 9, ∑ i, hR K i b'.val * v i = ∑ i, hR K i 9 * v i := by
  have h2 : ∑ i, v i = ∑ b : Fin 10, ∑ i, hR K i b.val * v i := by
    rw [Finset.sum_comm]
    refine Finset.sum_congr rfl fun i _ => ?_
    rw [← Finset.sum_mul, sum_hR, one_mul]
  rw [h2, Fin.sum_univ_castSucc]
  simp only [Fin.coe_castSucc, Fin.val_last]
  ring

theorem recover_one : (∑ _i : ι, (1 : ℝ)) - ∑ b' : Fin 9, ∑ i, hR K i b'.val = ∑ i, hR K i 9 := by
  simpa using recover K (fun _ => (1 : ℝ))

/-- The kernel's subtraction, a total less the epilogue's sum of nine rows from an initial zero, in the reals. -/
theorem sub_sum9 (T : ℝ) (S : Fin 9 → ℝ) :
    (T : EReal) - (zeroE + ∑ b' : Fin 9, (S b' : EReal)) = ((T - ∑ b', S b' : ℝ) : EReal) := by
  rw [zeroE_eq, zero_add, ← coe_sum, ← EReal.coe_sub]

end Core

/-! ## The kernel's and the reference's per-bin vectors, both as real sums -/

section Vectors

variable {ι : Type} [Fintype ι] (K : ι → Fin 10) (x y : ι → EReal) (p yr : ι → ℝ)
  (hK : ∀ i, binw (x i) = BitVec.ofNat 32 (K i).val)
  (hp : ∀ i, prob (x i) = (p i : EReal))
  (hy : ∀ i, y i = (yr i : EReal))

include hK in
theorem row_cnt {b : ℕ} (hb : b < 9) : ∑ i, gK b (x i) (y i) = ((∑ i, hR K i b : ℝ) : EReal) := by
  rw [coe_sum]
  refine Finset.sum_congr rfl fun i _ => ?_
  rw [gK_cnt _ _ hb, hit_of_binw (hK i) (by omega)]
  rfl

include hK hy in
theorem row_lab {b : ℕ} (hb : b < 9) :
    ∑ i, gK (9 + b) (x i) (y i) = ((∑ i, hR K i b * yr i : ℝ) : EReal) := by
  rw [coe_sum]
  refine Finset.sum_congr rfl fun i _ => ?_
  rw [gK_lab _ _ hb, hit_of_binw (hK i) (by omega), hy, ← EReal.coe_mul]
  rfl

include hK hp in
theorem row_conf {b : ℕ} (hb : b < 9) :
    ∑ i, gK (18 + b) (x i) (y i) = ((∑ i, hR K i b * p i : ℝ) : EReal) := by
  rw [coe_sum]
  refine Finset.sum_congr rfl fun i _ => ?_
  rw [gK_conf _ _ hb, hit_of_binw (hK i) (by omega), hp, ← EReal.coe_mul]
  rfl

include hp in
theorem row_27 : ∑ i, gK 27 (x i) (y i) = ((∑ i, p i : ℝ) : EReal) := by
  rw [coe_sum]
  exact Finset.sum_congr rfl fun i _ => by rw [gK_27, hp]

include hy in
theorem row_28 : ∑ i, gK 28 (x i) (y i) = ((∑ i, yr i : ℝ) : EReal) := by
  rw [coe_sum]
  exact Finset.sum_congr rfl fun i _ => by rw [gK_28, hy]

include hK in
/-- The kernel's counts: rows 0–8, and bin 9 as `N` less their sum. -/
theorem cntK_eq (hN : ∑ _i : ι, (1 : ℝ) = 16777216) (b : Fin 10) :
    cntK (fun j => ∑ i, gK j.val (x i) (y i)) b = ((∑ i, hR K i b.val : ℝ) : EReal) := by
  unfold cntK
  by_cases h : b.val < 9
  · rw [dif_pos h]
    exact row_cnt K x y hK h
  · rw [dif_neg h]
    have hb : b.val = 9 := by have := b.isLt; omega
    have e : (∑ b' : Fin 9, ∑ i, gK b'.val (x i) (y i))
        = ∑ b' : Fin 9, ((∑ i, hR K i b'.val : ℝ) : EReal) :=
      Finset.sum_congr rfl fun b' _ => row_cnt K x y hK b'.isLt
    show nE - (zeroE + ∑ b' : Fin 9, ∑ i, gK b'.val (x i) (y i)) = _
    rw [e, nE_eq, sub_sum9, hb, ← recover_one K, hN]

include hK hy in
/-- The kernel's label sums: rows 9–17, and bin 9 as the total label less their sum. -/
theorem labK_eq (b : Fin 10) :
    labK (fun j => ∑ i, gK j.val (x i) (y i)) b = ((∑ i, hR K i b.val * yr i : ℝ) : EReal) := by
  unfold labK
  by_cases h : b.val < 9
  · rw [dif_pos h]
    exact row_lab K x y yr hK hy h
  · rw [dif_neg h]
    have hb : b.val = 9 := by have := b.isLt; omega
    have e : (∑ b' : Fin 9, ∑ i, gK (9 + b'.val) (x i) (y i))
        = ∑ b' : Fin 9, ((∑ i, hR K i b'.val * yr i : ℝ) : EReal) :=
      Finset.sum_congr rfl fun b' _ => row_lab K x y yr hK hy b'.isLt
    show (∑ i, gK 28 (x i) (y i)) - (zeroE + ∑ b' : Fin 9, ∑ i, gK (9 + b'.val) (x i) (y i)) = _
    rw [e, row_28 x y yr hy, sub_sum9, hb, ← recover K]

include hK hp in
/-- The kernel's probability sums: rows 18–26, and bin 9 as the total probability less their sum. -/
theorem confK_eq (b : Fin 10) :
    confK (fun j => ∑ i, gK j.val (x i) (y i)) b = ((∑ i, hR K i b.val * p i : ℝ) : EReal) := by
  unfold confK
  by_cases h : b.val < 9
  · rw [dif_pos h]
    exact row_conf K x y p hK hp h
  · rw [dif_neg h]
    have hb : b.val = 9 := by have := b.isLt; omega
    have e : (∑ b' : Fin 9, ∑ i, gK (18 + b'.val) (x i) (y i))
        = ∑ b' : Fin 9, ((∑ i, hR K i b'.val * p i : ℝ) : EReal) :=
      Finset.sum_congr rfl fun b' _ => row_conf K x y p hK hp b'.isLt
    show (∑ i, gK 27 (x i) (y i)) - (zeroE + ∑ b' : Fin 9, ∑ i, gK (18 + b'.val) (x i) (y i)) = _
    rw [e, row_27 x y p hp, sub_sum9, hb, ← recover K]

include hK hy in
/-- The kernel's accuracy sums: the label sum in bins 5–9, the count less the label sum in bins 0–4. -/
theorem accK_eq (hN : ∑ _i : ι, (1 : ℝ) = 16777216) (b : Fin 10) :
    accK (fun j => ∑ i, gK j.val (x i) (y i)) b
      = ((if b.val ≤ 4 then (∑ i, hR K i b.val) - ∑ i, hR K i b.val * yr i else ∑ i, hR K i b.val * yr i : ℝ) : EReal) := by
  unfold accK
  rw [labK_eq K x y yr hK hy b, cntK_eq K x y hK hN b]
  by_cases h : 5 ≤ b.val
  · rw [if_pos h, if_neg (by omega)]
  · rw [if_neg h, if_pos (by omega), EReal.coe_sub]

include hK in
/-- The reference's counts. -/
theorem cnt_eq (b : Fin 10) : ∑ i, hit (x i) b.val = ((∑ i, hR K i b.val : ℝ) : EReal) := by
  rw [coe_sum]
  exact Finset.sum_congr rfl fun i _ => hit_of_binw (hK i) b.isLt

include hK hp in
/-- The reference's probability sums. -/
theorem conf_eq (b : Fin 10) :
    ∑ i, hit (x i) b.val * prob (x i) = ((∑ i, hR K i b.val * p i : ℝ) : EReal) := by
  rw [coe_sum]
  refine Finset.sum_congr rfl fun i _ => ?_
  rw [hit_of_binw (hK i) b.isLt, hp, ← EReal.coe_mul]
  rfl

include hK in
/-- The reference's accuracy sums: a sample of bin `b ≤ 4` is predicted 0 and counts when its label is 0, a sample of
    bin `b ≥ 5` is predicted 1 and counts when its label is 1. -/
theorem accR_eq (hacc : ∀ i, accOf (x i) (y i) = ((if (K i).val ≤ 4 then 1 - yr i else yr i : ℝ) : EReal))
    (b : Fin 10) :
    ∑ i, hit (x i) b.val * accOf (x i) (y i)
      = ((if b.val ≤ 4 then (∑ i, hR K i b.val) - ∑ i, hR K i b.val * yr i else ∑ i, hR K i b.val * yr i : ℝ) : EReal) := by
  have e : ∀ i, hit (x i) b.val * accOf (x i) (y i)
      = ((hR K i b.val * (if b.val ≤ 4 then 1 - yr i else yr i) : ℝ) : EReal) := by
    intro i
    rw [hit_of_binw (hK i) b.isLt, hacc, ← EReal.coe_mul]
    congr 1
    unfold hR
    by_cases hk : (K i).val = b.val
    · rw [hk]
    · rw [if_neg hk, zero_mul, zero_mul]
  rw [Finset.sum_congr rfl fun i _ => e i, ← coe_sum]
  congr 1
  by_cases h : b.val ≤ 4
  · simp only [if_pos h, mul_sub, mul_one, Finset.sum_sub_distrib]
  · simp only [if_neg h]

end Vectors

/-! ## The bridge -/

/-- With finite logits and labels in {0,1}, the kernel's three per-bin vectors give the reference's calibration error. -/
theorem bridge (X Y : SArg.Idx → EReal) (hX : ∀ i : Fin NN, ∃ r : ℝ, smp X i = (r : EReal))
    (hY : ∀ i : Fin NN, smp Y i = 0 ∨ smp Y i = 1) :
    eceOf (cntK fun j => ∑ i : Fin NN, gK j.val (smp X i) (smp Y i))
          (accK fun j => ∑ i : Fin NN, gK j.val (smp X i) (smp Y i))
          (confK fun j => ∑ i : Fin NN, gK j.val (smp X i) (smp Y i))
      = eceOf (cnt X) (accR X Y) (conf X) := by
  -- the real logit, the real label and the bin of every sample
  choose r hr using hX
  have hY' : ∀ i : Fin NN, ∃ yr : ℝ, (yr = 0 ∨ yr = 1) ∧ smp Y i = (yr : EReal) := by
    intro i
    rcases hY i with h | h
    · exact ⟨0, Or.inl rfl, by rw [h, EReal.coe_zero]⟩
    · exact ⟨1, Or.inr rfl, by rw [h, EReal.coe_one]⟩
  choose yr hyr01 hyr using hY'
  choose K hK hK4 using fun i : Fin NN => binw_coe (r i)
  have hKx : ∀ i, binw (smp X i) = BitVec.ofNat 32 (K i).val := fun i => by rw [hr i]; exact hK i
  have hp : ∀ i, prob (smp X i) = ((pR (r i) : ℝ) : EReal) := fun i => by rw [hr i]; exact prob_coe _
  have hacc : ∀ i, accOf (smp X i) (smp Y i) = ((if (K i).val ≤ 4 then 1 - yr i else yr i : ℝ) : EReal) := by
    intro i
    rw [hr i, hyr i, accOf_coe _ _ (hyr01 i)]
    by_cases h : (K i).val ≤ 4
    · rw [if_pos h, if_pos ((hK4 i).mp h)]
    · rw [if_neg h, if_neg (fun h' => h ((hK4 i).mpr h'))]
  have hN : ∑ _i : Fin NN, (1 : ℝ) = 16777216 := by
    rw [Finset.sum_const, Finset.card_univ, Fintype.card_fin, nsmul_eq_mul, mul_one]
    norm_num
  -- the three vectors agree entry by entry
  have h1 : (cntK fun j => ∑ i : Fin NN, gK j.val (smp X i) (smp Y i)) = cnt X :=
    funext fun b => (cntK_eq K (fun i => smp X i) (fun i => smp Y i) hKx hN b).trans
      (cnt_eq K (fun i => smp X i) hKx b).symm
  have h2 : (accK fun j => ∑ i : Fin NN, gK j.val (smp X i) (smp Y i)) = accR X Y :=
    funext fun b => (accK_eq K (fun i => smp X i) (fun i => smp Y i) yr hKx hyr hN b).trans
      (accR_eq K (fun i => smp X i) (fun i => smp Y i) yr hKx hacc b).symm
  have h3 : (confK fun j => ∑ i : Fin NN, gK j.val (smp X i) (smp Y i)) = conf X :=
    funext fun b => (confK_eq K (fun i => smp X i) (fun i => smp Y i) (fun i => pR (r i)) hKx hp b).trans
      (conf_eq K (fun i => smp X i) (fun i => pR (r i)) hKx hp b).symm
  rw [h1, h2, h3]

/-! ## The epilogue's row sums are flat sums -/

/-- The mixed-radix bound: a digit `q < b` appended to `p < a` stays below `a * b`. -/
theorem radix_lt {a b p q : ℕ} (hp : p < a) (hq : q < b) : p * b + q < a * b :=
  calc p * b + q < p * b + b := by omega
    _ = (p + 1) * b := by ring
    _ ≤ a * b := Nat.mul_le_mul_right b hp

/-- A sum over `Fin (a * b)` is the double sum over the quotient and the remainder of the index by `b`. -/
theorem sum_fin_mul {M : Type} [AddCommMonoid M] (a b : ℕ) (f : Fin (a * b) → M) :
    ∑ i : Fin (a * b), f i = ∑ p : Fin a, ∑ q : Fin b, f ⟨p.val * b + q.val, radix_lt p.isLt q.isLt⟩ := by
  rw [← finProdFinEquiv.sum_comp, Fintype.sum_prod_type]
  refine Finset.sum_congr rfl fun p _ => Finset.sum_congr rfl fun q _ => congrArg f (Fin.ext ?_)
  show q.val + b * p.val = p.val * b + q.val
  rw [Nat.mul_comm, Nat.add_comm]

/-- The same with four digits. -/
theorem sum_fin_mul4 {M : Type} [AddCommMonoid M] (a b c d : ℕ) (f : Fin (a * b * c * d) → M) :
    ∑ i : Fin (a * b * c * d), f i
      = ∑ p : Fin a, ∑ q : Fin b, ∑ r : Fin c, ∑ s : Fin d,
          f ⟨((p.val * b + q.val) * c + r.val) * d + s.val,
            radix_lt (radix_lt (radix_lt p.isLt q.isLt) r.isLt) s.isLt⟩ := by
  refine (sum_fin_mul (a * b * c) d f).trans ?_
  refine (sum_fin_mul (a * b) c _).trans ?_
  refine (sum_fin_mul a b _).trans ?_
  rfl

/-- The map (lane, core, block of the core, row) ↦ flat sample index is a bijection onto all `N` samples: the
    four-fold sum in the kernel's order is the sum over all samples. -/
theorem sum_flat {M : Type} [AddCommMonoid M] (f : Fin NN → M) :
    ∑ l : Fin 128, ∑ c : Fin 2, ∑ s : Fin 8, ∑ R : Fin 8192,
        f (flat ⟨c.val * 8 + s.val, by have := c.isLt; have := s.isLt; omega⟩ R l)
      = ∑ i : Fin NN, f i := by
  refine Eq.trans ?_ (sum_fin_mul4 2 8 8192 128 f).symm
  refine Finset.sum_comm.trans (Finset.sum_congr rfl fun c _ => ?_)
  refine Finset.sum_comm.trans (Finset.sum_congr rfl fun s _ => ?_)
  refine Finset.sum_comm.trans (Finset.sum_congr rfl fun R _ => Finset.sum_congr rfl fun l _ => rfl)

/-- The epilogue's row sums of the kernel's output array are flat sums over all N samples. -/
theorem rowsum_flat (X Y : SArg.Idx → EReal) (A : (⟨3, ![2, 32, 128]⟩ : Shape).Idx → EReal)
    (hA : ∀ (c : Fin 2) (j : Fin 32) (l : Fin 128), A (ValueIdx.ix3 c j l) = arrK X Y c j l) (j : Fin 32) :
    rsOf A j = ∑ i : Fin NN, gK j.val (smp X i) (smp Y i) := by
  unfold rsOf
  simp only [Ideal.ofBits_zero_f32, zero_add, hA, arrK, blockRow]
  exact sum_flat (fun i => gK j.val (smp X i) (smp Y i))

end Cert.Ece

end
-- ==== Proof.KValue.lean ====
import proofs.«416669_j55327768707242_3_alg».proof.Proof.KSamples
import proofs.«416669_j55327768707242_3_alg».proof.Proof.KTail
import proofs.«416669_j55327768707242_3_alg».proof.Proof.Bridge

/-! # The kernel program's result

The region leaves the `[2, 32, 128]` array `arrK` of the two arguments; the host epilogue takes its row sums, which are
flat sums over all samples, recovers bin 9 and the accuracy sums from them, and evaluates the calibration error.
With finite logits and labels in `{0, 1}` that is the reference's value. -/

set_option maxRecDepth 16384

noncomputable section

namespace Cert.Ece.K

open Idealize.ShloMosaic Idealize.ShloMosaic.ValueIdx Idealize.ShloMosaic.TcCoe Idealize.SL.Sem
open Cert.KernelIdeal Cert.KernelIdeal.Gen Cert.Ece

variable (m : (ℓ : Loc nD τ sig) → Buf (Elt Ideal) ℓ)

/-- The value the kernel program's result buffer ends at, on core `c`. -/
def eceVal (c : Dev nD) : EReal := eceOf (cnt (argX m c)) (accR (argX m c) (argY m c)) (conf (argX m c))

/-- The epilogue's result is the calibration error of the two arguments. -/
theorem kernel_result (c : Dev nD)
    (hX : ∀ i : Fin NN, ∃ r : ℝ, smp (argX m c) i = (r : EReal))
    (hY : ∀ i : Fin NN, smp (argY m c) i = 0 ∨ smp (argY m c) i = 1) :
    Pipeline.afterTail₀ cfgs (dats (F := Ideal) m) 0 (V0 m) [hostOps1, hostOps1_1, hostOps1_2, hostOps1_3, hostOps1_4] c main_v42
      = fun _ => eceVal m c := by
  rw [Cert.Ece.KTail.tail_value m c]
  have hrs : rsOf ((dats (F := Ideal) m 0 c).arrAt 2 cfg0.N)
      = fun j => ∑ i : Fin NN, gK j.val (smp (argX m c) i) (smp (argY m c) i) := by
    funext j
    refine rowsum_flat (argX m c) (argY m c) _ (fun cc j' l => ?_) j
    rw [arr_out m c]
    exact Gout_eq m c cc j' l
  rw [hrs]
  funext _
  exact bridge (argX m c) (argY m c) hX hY

/-- THE KERNEL PROGRAM'S RUN, read: every weakly fair execution terminates with the result buffer at the
    calibration error of the two arguments, which end unchanged. -/
theorem kernel_run (ρ : Dev nD → PrngReg)
    (hX : ∀ c : Dev nD, ∀ i : Fin NN, ∃ r : ℝ, smp (argX m c) i = (r : EReal))
    (hY : ∀ c : Dev nD, ∀ i : Fin NN, smp (argY m c) i = 0 ∨ smp (argY m c) i = 1) :
    θ_run defs (onTc (τ := τ) (main (F := Ideal))) ⟨m, fun _ => 0, ρ⟩ (fun r => ∀ c : Dev nD,
      r.2.mem ((c.tc : Thread nD τ).loc main_v42) = (fun _ => eceVal m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v42 (Pipeline.mem_restRefs_of main_v42 (by decide) (by decide))).trans (kernel_result m c (hX c) (hY c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Ece.K

end
-- ==== Proof.RefValue.lean ====
import proofs.«416669_j55327768707242_3_alg».proof.Proof.RefReadP
import proofs.«416669_j55327768707242_3_alg».proof.Proof.Spec

/-! # The reference's value

The reference program, read one operation at a time, computes the ten-bin calibration error of the specification:
its result is `eceOf (cnt X) (accR X Y) (conf X)` at the one index of its output.

The road. Per sample `i` the program forms the probability `1 / (1 + e^(-x))`, the bin word (the ceiling of ten times
the probability, converted to an integer, less one, clipped to `[0, 9]`) and the accuracy indicator; these are the
specification's `prob`, `binw` and `accOf` of sample `i`, operation by operation. Each of the three accumulating
scatters adds, to a zero vector of ten bins, every update whose index word names the bin. For this scatter's
dimension numbers an update `j` lands on bin `b` exactly when the index word at `(j, 0)`, read as a signed integer,
is `b`; the clipped word always lies in `[0, 9]`, so this is equality of words, and the scatter at bin `b` is the sum
over all samples of "the update if the sample's bin word is `b`, else zero": the specification's `cnt`, `accR` and
`conf`. The operations after the scatters are the specification's `term` at each bin, summed over the ten bins from an
initial zero, and the final reshape of the rank-0 sum to one element reads that sum. -/

noncomputable section

namespace Cert.Ece.Ref

open Idealize.ShloMosaic Idealize.ShloMosaic.ValueIdx Cert.ReferenceIdeal Cert.ReferenceIdeal.Gen Cert.ReferenceIdeal.Read

/-! ## The scatter's dimension numbers: where an update lands -/

/-- The dimension numbers of the three scatters: operand `[10]`, indices `[N, 1]`, updates `[N]`; no window axes, the
    operand's one axis inserted and named by the index vector's one component. -/
abbrev scat := scatter_S10_S16777216x1_S16777216_n_0_0_1

/-- The start of update `j`'s window on the operand's axis is the index word at `(j, 0)`, read signed. -/
theorem scat_start (idx : IVec S16777216x1 32) (j : S16777216.Idx) (a : Fin S10.rank) :
    scat.start j idx a = (idx (ix2 (j 0) (0 : Fin 1))).toInt := by
  have ha : a = 0 := Subsingleton.elim _ _
  subst ha
  unfold ScatterDims.start
  rw [dif_pos (by decide)]
  congr 1
  congr 1
  funext b
  match b with
  | ⟨0, _⟩ => rfl
  | ⟨1, _⟩ => rfl

/-- There is no window axis: the window coordinate on the operand's axis is zero. -/
theorem scat_window (j : S16777216.Idx) (a : Fin S10.rank) : scat.window j a = 0 := by
  have ha : a = 0 := Subsingleton.elim _ _
  subst ha
  unfold ScatterDims.window
  rw [dif_neg (by decide)]

/-- Update `j` lands on bin `b` exactly when the index word at `(j, 0)`, read signed, is `b`'s coordinate. -/
theorem scat_resultIdx_iff (idx : IVec S16777216x1 32) (j : S16777216.Idx) (b : S10.Idx) :
    scat.resultIdx? j idx = some b ↔ (idx (ix2 (j 0) (0 : Fin 1))).toInt = ((b 0).val : Int) := by
  have hb : (b 0).val < 10 := (b 0).isLt
  unfold ScatterDims.resultIdx?
  simp only [scat_start, scat_window, Nat.cast_zero, add_zero]
  split
  · rename_i h
    have h0 : 0 ≤ (idx (ix2 (j 0) (0 : Fin 1))).toInt ∧ (idx (ix2 (j 0) (0 : Fin 1))).toInt < (10 : Int) := h 0
    constructor
    · intro e
      have e1 := congrArg Fin.val (congrFun (Option.some.inj e) 0)
      simp only at e1
      omega
    · intro e
      congr 1
      funext a
      have ha : a = 0 := Subsingleton.elim _ _
      subst ha
      apply Fin.ext
      show (idx (ix2 (j 0) (0 : Fin 1))).toInt.toNat = (b 0).val
      omega
  · rename_i h
    constructor
    · intro e; cases e
    · intro e
      exfalso
      apply h
      intro a
      have ha : a = 0 := Subsingleton.elim _ _
      subst ha
      show 0 ≤ (idx (ix2 (j 0) (0 : Fin 1))).toInt ∧ (idx (ix2 (j 0) (0 : Fin 1))).toInt < (10 : Int)
      omega

/-- A 32-bit word read signed is `n < 10` exactly when it is the word of `n`. -/
theorem word_eq_iff (w : BitVec 32) (n : Nat) (hn : n < 10) :
    w.toInt = (n : Int) ↔ w = BitVec.ofNat 32 n := by
  constructor
  · intro e
    apply BitVec.eq_of_toInt_eq
    rw [e]
    interval_cases n <;> rfl
  · intro e
    subst e
    interval_cases n <;> rfl

/-- A rank-1 index set is its coordinate range … -/
def idx1Equiv {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idx1Equiv (n := n)).symm f]
  rfl

/-- The accumulating scatter onto a zero vector, when the index word of sample `i` is `w i`: at bin `b` the sum over all
    samples of the update where `w i` is `b`'s word, zero elsewhere. (No range for `w i` is needed here: a word reads,
    signed, as `b < 10` exactly when it is `b`'s word.) -/
theorem scatter_flat (zeros : S10.Idx → EReal) (idxv : IVec S16777216x1 32) (upd : S16777216.Idx → EReal)
    (w : Fin NN → BitVec 32)
    (hw : ∀ i : Fin NN, idxv (ix2 i (0 : Fin 1)) = w i)
    (hz : ∀ b, zeros b = 0) (b : S10.Idx) :
    Ideal.hostScatterAdd scat zeros idxv upd b
      = ∑ i : Fin NN, if w i = BitVec.ofNat 32 (b 0).val then upd (ix1 i) else 0 := by
  unfold Ideal.hostScatterAdd
  rw [hz, zero_add, Finset.sum_filter, sum_idx1]
  refine Finset.sum_congr rfl fun i _ => ?_
  refine if_congr ?_ rfl rfl
  rw [scat_resultIdx_iff]
  show (idxv (ix2 i (0 : Fin 1))).toInt = _ ↔ _
  rw [hw]
  exact word_eq_iff _ _ (b 0).isLt

/-! ## Per sample: the probability, the bin word, the accuracy indicator -/

/-- The word `0x3F800000` is one. -/
theorem one_word : (FloatOps.ofBits (F := Ideal) .f32 0x3F800000#32) = (1 : EReal) := Ideal.ofBits_one_f32
/-- The word `0x00000000` is zero. -/
theorem zero_word : (FloatOps.ofBits (F := Ideal) .f32 0x00000000#32) = (0 : EReal) := Ideal.ofBits_zero_f32

/-- The reshape `[N, 1] → [N]` of the probabilities reads sample `j` at `(j, 0)`. -/
theorem idx6_eq (j : S16777216.Idx) : idx_main_v6 j = ix2 (j 0) (0 : Fin 1) := by
  funext a
  match a with
  | ⟨0, _⟩ => exact Fin.ext (Nat.div_one _)
  | ⟨1, _⟩ => rfl

/-- The reshape `[N, 1] → [N]` of the labels reads sample `j` at `(j, 0)`. -/
theorem idx7_eq (j : S16777216.Idx) : idx_main_v7 j = ix2 (j 0) (0 : Fin 1) := by
  funext a
  match a with
  | ⟨0, _⟩ => exact Fin.ext (Nat.div_one _)
  | ⟨1, _⟩ => rfl

/-- Sample `j`'s probability: `1 / (1 + e^(-x))` is the logistic function of the logit. -/
theorem v6_eq (X : SArg.Idx → EReal) (j : S16777216.Idx) :
    val_main_v6 (F := Ideal) X j = prob (smp X (j 0)) := by
  rw [val_main_v6_apply, val_main_v5_apply, val_main_v4_apply, val_main_v3_apply, val_main_v2_apply,
    val_main_v1_apply, val_main_v0_apply, val_main_cst_apply, val_main_cst_0_apply, idx6_eq, one_word]
  rfl

/-- Sample `j`'s bin word: the same operations in the same order as `binw`. -/
theorem v19_eq (X : SArg.Idx → EReal) (j : S16777216.Idx) :
    val_main_v19 (F := Ideal) X j = binw (smp X (j 0)) := by
  rw [val_main_v19_apply, val_main_call0_v4_apply, val_main_call0_v3_apply, val_main_c_4_apply,
    val_main_call0_v2_apply, val_main_call0_v1_apply, val_main_call0_v0_apply, val_main_c_3_apply,
    val_main_v18_apply, val_main_v17_apply, val_main_c_apply, val_main_v16_apply, val_main_v15_apply,
    val_main_v14_apply, val_main_v13_apply, val_main_cst_2_apply, v6_eq]
  rfl

/-- Sample `j`'s accuracy indicator: whether the prediction `[p > 1/2]` equals the label. -/
theorem v12_eq (X Y : SArg.Idx → EReal) (j : S16777216.Idx) :
    val_main_v12 (F := Ideal) X Y j = accOf (smp X (j 0)) (smp Y (j 0)) := by
  rw [val_main_v12_apply, val_main_v11_apply, val_main_v10_apply, val_main_v9_apply, val_main_v8_apply,
    val_main_cst_1_apply, val_main_v7_apply, idx7_eq, v6_eq]
  rfl

/-- A word clipped below by 0 and above by 9 reads, signed, in `[0, 9]`. -/
theorem clip_bounds (z : BitVec 32) :
    0 ≤ (IntOp.minsi 9#32 (IntOp.maxsi 0#32 z)).toInt ∧ (IntOp.minsi 9#32 (IntOp.maxsi 0#32 z)).toInt ≤ 9 := by
  unfold IntOp.minsi IntOp.maxsi
  have h9 : (9#32 : BitVec 32).toInt = 9 := by decide
  have h0 : (0#32 : BitVec 32).toInt = 0 := by decide
  simp only [BitVec.slt, decide_eq_true_eq]
  split_ifs <;> omega

/-- The bin word reads, signed, in `[0, 9]`. -/
theorem binw_bounds (x : EReal) : 0 ≤ (binw x).toInt ∧ (binw x).toInt ≤ 9 := clip_bounds _

/-! ## The three scatters -/

/-- The broadcast of the bin words to `[N, 1]` reads sample `i` at `(i, 0)` (the count's scatter). -/
theorem idx22_eq (i : Fin NN) : idx_main_v22 (ix2 i (0 : Fin 1)) = ix1 i := by
  funext a
  match a with
  | ⟨0, _⟩ => rfl

/-- The same for the accuracy sums' scatter. -/
theorem idx25_eq (i : Fin NN) : idx_main_v25 (ix2 i (0 : Fin 1)) = ix1 i := by
  funext a
  match a with
  | ⟨0, _⟩ => rfl

/-- The same for the probability sums' scatter. -/
theorem idx28_eq (i : Fin NN) : idx_main_v28 (ix2 i (0 : Fin 1)) = ix1 i := by
  funext a
  match a with
  | ⟨0, _⟩ => rfl

/-- The count scatter's index word of sample `i` is its bin word. -/
theorem v22_word (X : SArg.Idx → EReal) (i : Fin NN) :
    val_main_v22 (F := Ideal) X (ix2 i (0 : Fin 1)) = binw (smp X i) := by
  rw [val_main_v22_apply, idx22_eq, v19_eq]

/-- The accuracy scatter's index word of sample `i` is its bin word. -/
theorem v25_word (X : SArg.Idx → EReal) (i : Fin NN) :
    val_main_v25 (F := Ideal) X (ix2 i (0 : Fin 1)) = binw (smp X i) := by
  rw [val_main_v25_apply, idx25_eq, v19_eq]

/-- The probability scatter's index word of sample `i` is its bin word. -/
theorem v28_word (X : SArg.Idx → EReal) (i : Fin NN) :
    val_main_v28 (F := Ideal) X (ix2 i (0 : Fin 1)) = binw (smp X i) := by
  rw [val_main_v28_apply, idx28_eq, v19_eq]

/-- The three scatters' operands are zero vectors. -/
theorem v21_zero (b : S10.Idx) : val_main_v21 (F := Ideal) b = 0 := by
  rw [val_main_v21_apply, val_main_cst_6_apply, zero_word]
theorem v24_zero (b : S10.Idx) : val_main_v24 (F := Ideal) b = 0 := by
  rw [val_main_v24_apply, val_main_cst_7_apply, zero_word]
theorem v27_zero (b : S10.Idx) : val_main_v27 (F := Ideal) b = 0 := by
  rw [val_main_v27_apply, val_main_cst_8_apply, zero_word]

/-- The three scatters at the ideal values: each operand element plus the sum of the updates landing on it. -/
theorem v23_def (X : SArg.Idx → EReal) :
    val_main_v23 (F := Ideal) X
      = Ideal.hostScatterAdd scat (val_main_v21 (F := Ideal)) (val_main_v22 (F := Ideal) X) (val_main_v20 (F := Ideal)) := rfl
theorem v26_def (X Y : SArg.Idx → EReal) :
    val_main_v26 (F := Ideal) X Y
      = Ideal.hostScatterAdd scat (val_main_v24 (F := Ideal)) (val_main_v25 (F := Ideal) X) (val_main_v12 (F := Ideal) X Y) := rfl
theorem v29_def (X : SArg.Idx → EReal) :
    val_main_v29 (F := Ideal) X
      = Ideal.hostScatterAdd scat (val_main_v27 (F := Ideal)) (val_main_v28 (F := Ideal) X) (val_main_v6 (F := Ideal) X) := rfl

/-- The scatter of ones is the count of each bin. -/
theorem v23_eq (X : SArg.Idx → EReal) (b : S10.Idx) : val_main_v23 (F := Ideal) X b = cnt X (b 0) := by
  rw [v23_def]
  rw [scatter_flat (val_main_v21 (F := Ideal)) (val_main_v22 (F := Ideal) X) (val_main_v20 (F := Ideal))
    (fun i => binw (smp X i)) (v22_word X) v21_zero b]
  show _ = ∑ i : Fin NN, hit (smp X i) (b 0).val
  refine Finset.sum_congr rfl fun i _ => ?_
  rw [val_main_v20_apply, val_main_cst_5_apply, one_word]
  rfl

/-- The scatter of the accuracy indicators is each bin's accuracy sum: `[bin = b] · acc` is `acc` in the bin, else zero. -/
theorem v26_eq (X Y : SArg.Idx → EReal) (b : S10.Idx) : val_main_v26 (F := Ideal) X Y b = accR X Y (b 0) := by
  rw [v26_def]
  rw [scatter_flat (val_main_v24 (F := Ideal)) (val_main_v25 (F := Ideal) X) (val_main_v12 (F := Ideal) X Y)
    (fun i => binw (smp X i)) (v25_word X) v24_zero b]
  show _ = ∑ i : Fin NN, hit (smp X i) (b 0).val * accOf (smp X i) (smp Y i)
  refine Finset.sum_congr rfl fun i _ => ?_
  rw [v12_eq]
  show _ = (if binw (smp X i) = BitVec.ofNat 32 (b 0).val then (1 : EReal) else 0) * accOf (smp X i) (smp Y i)
  rw [ite_mul, one_mul, zero_mul]

/-- The scatter of the probabilities is each bin's probability sum. -/
theorem v29_eq (X : SArg.Idx → EReal) (b : S10.Idx) : val_main_v29 (F := Ideal) X b = conf X (b 0) := by
  rw [v29_def]
  rw [scatter_flat (val_main_v27 (F := Ideal)) (val_main_v28 (F := Ideal) X) (val_main_v6 (F := Ideal) X)
    (fun i => binw (smp X i)) (v28_word X) v27_zero b]
  show _ = ∑ i : Fin NN, hit (smp X i) (b 0).val * prob (smp X i)
  refine Finset.sum_congr rfl fun i _ => ?_
  rw [v6_eq]
  show _ = (if binw (smp X i) = BitVec.ofNat 32 (b 0).val then (1 : EReal) else 0) * prob (smp X i)
  rw [ite_mul, one_mul, zero_mul]

/-! ## After the scatters: one bin's term, the sum over the bins, the reshape -/

/-- The operations after the scatters, on one bin's count `c`, accuracy sum `a` and probability sum `f`, are the
    specification's `term`: stated over variables, so that comparing the two never opens a sum over the samples. -/
theorem term_read (c a f : EReal) :
    Scalar.select (FloatOps.cmpf (F := Ideal) (φ := .f32) .ogt c (FloatOps.ofBits (F := Ideal) .f32 0x00000000#32))
      (FloatOps.mulf (F := Ideal) (φ := .f32)
        (FloatOps.hostDivf (F := Ideal) (φ := .f32) c (FloatOps.ofBits (F := Ideal) .f32 0x4B800000#32))
        (FloatOps.hostAbsf (F := Ideal) (φ := .f32)
          (FloatOps.subf (F := Ideal) (φ := .f32)
            (FloatOps.hostDivf (F := Ideal) (φ := .f32) f
              (FloatOps.maximumf (F := Ideal) (φ := .f32) c (FloatOps.ofBits (F := Ideal) .f32 0x3F800000#32)))
            (FloatOps.hostDivf (F := Ideal) (φ := .f32) a
              (FloatOps.maximumf (F := Ideal) (φ := .f32) c (FloatOps.ofBits (F := Ideal) .f32 0x3F800000#32))))))
      (FloatOps.ofBits (F := Ideal) .f32 0x00000000#32)
    = term c a f := rfl

/-- Bin `b`'s selected term. -/
theorem v41_eq (X Y : SArg.Idx → EReal) (b : S10.Idx) :
    val_main_v41 (F := Ideal) X Y b = term (cnt X (b 0)) (accR X Y (b 0)) (conf X (b 0)) := by
  rw [val_main_v41_apply, val_main_v31_apply, val_main_v30_apply, val_main_cst_9_apply, val_main_v40_apply,
    val_main_v37_apply, val_main_v36_apply, val_main_cst_11_apply, val_main_v39_apply, val_main_v38_apply,
    val_main_v35_apply, val_main_v34_apply, val_main_v33_apply, val_main_v32_apply, val_main_cst_10_apply,
    val_main_call1_v1_apply, val_main_call1_v0_apply, val_main_cst_12_apply, v23_eq, v26_eq, v29_eq]
  generalize cnt X (b 0) = c
  generalize accR X Y (b 0) = a
  generalize conf X (b 0) = f
  exact term_read c a f

/-- The final reshape of the rank-0 sum to one element. -/
theorem v43_def (X Y : SArg.Idx → EReal) :
    val_main_v43 (F := Ideal) X Y = shapeCast _ (val_main_v42 (F := Ideal) X Y) shapeCasts_S_S1 := rfl

/-- THE REFERENCE'S VALUE: the calibration error of the three per-bin vectors of the specification. -/
theorem ref_value (X Y : Cert.Ece.SArg.Idx → EReal) :
    Cert.ReferenceIdeal.Read.val_main_v43 (F := Ideal) X Y
      = fun _ => Cert.Ece.eceOf (Cert.Ece.cnt X) (Cert.Ece.accR X Y) (Cert.Ece.conf X) := by
  funext k
  rw [v43_def]
  rw [shapeCast_apply _ shapeCasts_S_S1 k ix0 (by
    have h1 := (S_.rowMajor ix0).isLt
    have h2 := (S1.rowMajor k).isLt
    have e1 : S_.numel = 1 := rfl
    have e2 : S1.numel = 1 := rfl
    omega)]
  rw [val_main_v42_apply, val_main_cst_13_apply, sum_idx1]
  have hs : ∑ a : Fin 10, val_main_v41 (F := Ideal) X Y (ix1 a)
      = ∑ b : Fin 10, term (cnt X b) (accR X Y b) (conf X b) :=
    Finset.sum_congr rfl fun b _ => v41_eq X Y (ix1 b)
  rw [hs]
  show zeroE + _ = zeroE + _
  rfl

end Cert.Ece.Ref

end
-- ==== Proof.PreDecode.lean ====
import proofs.«416669_j55327768707242_3_alg».proof.Pre_finite_inputs
import proofs.«416669_j55327768707242_3_alg».proof.Proof.Gen.Pre_finite_inputs
import proofs.«416669_j55327768707242_3_alg».proof.Proof.Spec
import Idealize.ShloMosaic.Lib.ReduceAll

/-! # What the precondition says of the two argument arrays

The precondition is the conjunction of three `all`-reductions over the `[N, 1]` arrays: every logit has a finite
absolute value, every label has a finite absolute value, and every label equals 0 or equals 1. Read back at the
extended reals: every logit is a real number, and every label is 0 or 1. -/

noncomputable section

namespace Cert.Ece

open Idealize.ShloMosaic Idealize.ShloMosaic.ValueIdx

/-- The scalar shape has one index. -/
instance subsingleton_scalar_idx : Subsingleton Cert.Pre_finite_inputs.S_.Idx :=
  ⟨fun a b => funext fun d => d.elim0⟩

/-- The word `0x7F800000` is the extended real `⊤`. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one' {b : Bool} : BitVec.ofBool b = 1#1 ↔ b = true := by cases b <;> decide

/-- An extended real whose absolute value `max x (-x)` compares below `⊤` is a real number. -/
theorem real_of_abs_lt_top (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [ofBits_inf_f32] at h
  have h' : max x (-x) < (⊤ : EReal) := by
    have := ofBool_eq_one'.1 h
    exact of_decide_eq_true this
  induction x using EReal.rec with
  | bot => exact absurd h' (by simp)
  | coe r => exact ⟨r, rfl⟩
  | top => exact absurd h' (by simp)

/-- An extended real that compares equal to the word of 0 or to the word of 1 is 0 or 1. -/
theorem zero_or_one_of_cmp (y : EReal)
    (h : IntOp.ori (FloatOps.cmpf (F := Ideal) (φ := .f32) .oeq y (Ideal.ofBits .f32 0x00000000#32))
      (FloatOps.cmpf (F := Ideal) (φ := .f32) .oeq y (Ideal.ofBits .f32 0x3F800000#32)) = 1#1) : y = 0 ∨ y = 1 := by
  rw [Ideal.ofBits_zero_f32, Ideal.ofBits_one_f32] at h
  rcases IntOp.ori_eq_one.1 h with h0 | h1
  · exact Or.inl (of_decide_eq_true (ofBool_eq_one'.1 h0))
  · exact Or.inr (of_decide_eq_true (ofBool_eq_one'.1 h1))

/-- The precondition read back: where it holds, every logit is a real number and every label is 0 or 1. The result
    word is a conjunction of three reductions by `and` over all indices; each reduction being 1 gives its element
    fact at every index, and the element facts are the two lemmas above. -/
theorem pre_decode [Cert.Pre_finite_inputs.Facts] (X Y : FVec Ideal Cert.Pre_finite_inputs.S16777216x1 .f32)
    (h : Cert.Pre_finite_inputs.fn (F := Ideal) X Y = fun _ => 1#1) :
    (∀ i : Fin NN, ∃ r : ℝ, smp X i = (r : EReal)) ∧ (∀ i : Fin NN, smp Y i = 0 ∨ smp Y i = 1) := by
  have h0 := congrFun h ValueIdx.ix0
  dsimp only [Cert.Pre_finite_inputs.fn] at h0
  obtain ⟨hAB, hC⟩ := IntOp.andi_eq_one.1 h0
  obtain ⟨hA, _⟩ := IntOp.andi_eq_one.1 hAB
  refine ⟨fun i => ?_, fun i => ?_⟩
  · have e := Host.reduce_andi_all _ _ _ _ ix0 hA (ix2 i (0 : Fin 1))
    rw [cmpf_apply, broadcastInDim_scalar_apply] at e
    exact real_of_abs_lt_top _ e
  · have e := Host.reduce_andi_all _ _ _ _ ix0 hC (ix2 i (0 : Fin 1))
    have e' : IntOp.ori (cmpf .oeq Y _ (ix2 i (0 : Fin 1))) (cmpf .oeq Y _ (ix2 i (0 : Fin 1))) = 1#1 := e
    rw [cmpf_apply, cmpf_apply, broadcastInDim_scalar_apply, broadcastInDim_scalar_apply] at e'
    exact zero_or_one_of_cmp _ e'

end Cert.Ece

end
-- ==== Proof.lean ====
/- The certificate of a ten-bin expected-calibration-error kernel against its jnp reference, over the extended reals.

   Both programs take `N = 2^24` logits and labels. A sample's probability is `p = 1 / (1 + e^(-x))` and its bin is
   `clip (⌈10 p⌉ - 1) 0 9`; per bin one needs the count, the sum of the probabilities and the sum of the accuracy
   indicator `[(p > 1/2) = label]`, and the result is `∑ b, [count b > 0] · (count b / N) · |conf b / max (count b) 1 -
   acc b / max (count b) 1|` (`Cert.Ece.eceOf`, Proof/Spec.lean).

   The reference takes the three per-bin sums by scatter-adds over all samples (Proof/RefValue.lean, over the run of the
   reference read one operation at a time). The kernel streams the samples as a `[131072, 128]` array in 16 blocks over
   a `2 × 8` grid; in each block a 32-trip loop carries 29 lane-wise running sums (the indicators of bins 0–8, those
   indicators times the label and times the probability, the total probability and the total label: Proof/KTrip.lean,
   Proof/KLoop.lean), each grid point adds them to a scratch accumulator that the core's first step zeroes and its last
   step stores (Proof/KBody.lean, Proof/KGrid.lean, Proof/KArr.lean, Proof/KSamples.lean), and the host epilogue sums
   over cores and lanes, recovers bin 9 by subtraction from the totals and the accuracy sums as the label sums (bins
   5–9, where the prediction is 1) or count less label sum (bins 0–4, where it is 0) (Proof/KTail.lean).

   The two agree when every logit is finite and every label is 0 or 1 (Proof/Bridge.lean): sums over the extended reals
   reorder freely, the subtractions that recover bin 9 are between finite values, and for a label in {0, 1} the
   indicator `[0 = label]` is `1 - label` and `[1 = label]` is `label`. That is what the precondition says
   (Proof/PreDecode.lean). The three frames are the generated certificates (the reference's its run with the result
   dropped); the idealization rewrote nothing, so `preserves` is trivial. -/
import proofs.«416669_j55327768707242_3_alg».proof.Defs
import proofs.«416669_j55327768707242_3_alg».proof.Proof.Gen.Kernel
import proofs.«416669_j55327768707242_3_alg».proof.Proof.Gen.Kernel.Skeleton
import proofs.«416669_j55327768707242_3_alg».proof.Proof.Gen.Kernel.Loops
import proofs.«416669_j55327768707242_3_alg».proof.Proof.Gen.Kernel.Launch
import proofs.«416669_j55327768707242_3_alg».proof.Proof.Gen.Kernel.Points
import proofs.«416669_j55327768707242_3_alg».proof.Proof.Gen.Kernel.Frame
import proofs.«416669_j55327768707242_3_alg».proof.Proof.Gen.KernelIdeal
import proofs.«416669_j55327768707242_3_alg».proof.Proof.Gen.KernelIdeal.Skeleton
import proofs.«416669_j55327768707242_3_alg».proof.Proof.Gen.KernelIdeal.Loops
import proofs.«416669_j55327768707242_3_alg».proof.Proof.Gen.KernelIdeal.Launch
import proofs.«416669_j55327768707242_3_alg».proof.Proof.Gen.KernelIdeal.Points
import proofs.«416669_j55327768707242_3_alg».proof.Proof.Gen.KernelIdeal.Frame
import proofs.«416669_j55327768707242_3_alg».proof.Proof.Gen.ReferenceIdeal
import proofs.«416669_j55327768707242_3_alg».proof.Proof.Gen.Pre_finite_inputs
import proofs.«416669_j55327768707242_3_alg».proof.Proof.KValue
import proofs.«416669_j55327768707242_3_alg».proof.Proof.RefValue
import proofs.«416669_j55327768707242_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition both programs end with the result buffer at the calibration error of the two arguments:
    the kernel's run (`Cert.Ece.K.kernel_run`) under what the precondition says of its arguments, the reference's run
    read back (`Cert.Ece.Ref.ref_value`) at arguments that agree with the kernel's. -/
theorem algebraic : Cert.algebraic_KernelIdeal_ReferenceIdeal := by
  intro m ρ m' ρ' hpre hagree
  have hdec := fun c => Cert.Ece.pre_decode _ _ (hpre c)
  refine ⟨fun c => (fun _ => Cert.Ece.K.eceVal m c),
    Cert.Ece.K.kernel_run m ρ (fun c => (hdec c).1) (fun c => (hdec c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).1, (hagree c).2]
  exact Cert.Ece.Ref.ref_value (Cert.Ece.K.argX m c) (Cert.Ece.K.argY m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
